-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x27 : S_.BroadcastsInDim S100000x27 (![] : Fin 0 → Fin S100000x27.rank)
  reducesTo_S100000x27_S_d0_1 : S100000x27.ReducesTo [0, 1] S_
  bcast_S_S100000x18 : S_.BroadcastsInDim S100000x18 (![] : Fin 0 → Fin S100000x18.rank)
  reducesTo_S100000x18_S_d0_1 : S100000x18.ReducesTo [0, 1] S_
  bcast_S_S32x96 : S_.BroadcastsInDim S32x96 (![] : Fin 0 → Fin S32x96.rank)
  reducesTo_S32x96_S_d0_1 : S32x96.ReducesTo [0, 1] S_
  bcast_S_S32 : S_.BroadcastsInDim S32 (![] : Fin 0 → Fin S32.rank)
  reducesTo_S32_S_d0 : S32.ReducesTo [0] S_
  bcast_S_S30x18 : S_.BroadcastsInDim S30x18 (![] : Fin 0 → Fin S30x18.rank)
  reducesTo_S30x18_S_d0_1 : S30x18.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S5x30 : S_.BroadcastsInDim S5x30 (![] : Fin 0 → Fin S5x30.rank)
  reducesTo_S5x30_S_d0_1 : S5x30.ReducesTo [0, 1] S_
  bcast_S_S5 : S_.BroadcastsInDim S5 (![] : Fin 0 → Fin S5.rank)
  reducesTo_S5_S_d0 : S5.ReducesTo [0] S_
  bcast_S_S8x96 : S_.BroadcastsInDim S8x96 (![] : Fin 0 → Fin S8x96.rank)
  reducesTo_S8x96_S_d0_1 : S8x96.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S8x96 .f32) (main_arg15 : FVec F S8 .f32) (main_arg16 : FVec F S1x8 .f32) (main_arg17 : FVec F S1 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S8x96 .f32 := Host.absf main_arg14
  let main_cst_20 : FVec F S_ .f32 := constant S_ .f32 0x7F800000#32
  let main_v55 : FVec F S8x96 .f32 := broadcastInDim S8x96 ![] bcast_S_S8x96 main_cst_20
  let main_v56 : IVec S8x96 1 := cmpf .olt main_v54 main_v55
  let main_c_21 : IVec S_ 1 := constantI S_ 1 1#1
  let main_v57 : IVec S_ 1 := (fun x v => Host.reduce IntOp.andi x v reducesTo_S8x96_S_d0_1 h_S_) main_v56 main_c_21
  let main_v58 : IVec S_ 1 := andi main_v53 main_v57
  let main_v59 : FVec F S8 .f32 := Host.absf main_arg15
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S1x8 .f32 := Host.absf main_arg16
  let main_cst_24 : FVec F S_ .f32 := constant S_ .f32 0x7F800000#32
  let main_v65 : FVec F S1x8 .f32 := broadcastInDim S1x8 ![] bcast_S_S1x8 main_cst_24
  let main_v66 : IVec S1x8 1 := cmpf .olt main_v64 main_v65
  let main_c_25 : IVec S_ 1 := constantI S_ 1 1#1
  let main_v67 : IVec S_ 1 := (fun x v => Host.reduce IntOp.andi x v reducesTo_S1x8_S_d0_1 h_S_) main_v66 main_c_25
  fn_part4 (F := F) main_arg17 main_v63 main_v67

def fn_part2 {F : FTy → Type} [FloatOps F] (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) (main_v33 : IVec S_ 1) : IVec S_ 1 :=
  let main_v34 : FVec F S30x30 .f32 := Host.absf main_arg10
  let main_cst_12 : FVec F S_ .f32 := constant S_ .f32 0x7F800000#32
  let main_v35 : FVec F S30x30 .f32 := broadcastInDim S30x30 ![] bcast_S_S30x30 main_cst_12
  let main_v36 : IVec S30x30 1 := cmpf .olt main_v34 main_v35
  let main_c_13 : IVec S_ 1 := constantI S_ 1 1#1
  let main_v37 : IVec S_ 1 := (fun x v => Host.reduce IntOp.andi x v reducesTo_S30x30_S_d0_1 h_S_) main_v36 main_c_13
  let main_v38 : IVec S_ 1 := andi main_v33 main_v37
  let main_v39 : FVec F S30 .f32 := Host.absf main_arg11
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S5x30 .f32 := Host.absf main_arg12
  let main_cst_16 : FVec F S_ .f32 := constant S_ .f32 0x7F800000#32
  let main_v45 : FVec F S5x30 .f32 := broadcastInDim S5x30 ![] bcast_S_S5x30 main_cst_16
  let main_v46 : IVec S5x30 1 := cmpf .olt main_v44 main_v45
  let main_c_17 : IVec S_ 1 := constantI S_ 1 1#1
  let main_v47 : IVec S_ 1 := (fun x v => Host.reduce IntOp.andi x v reducesTo_S5x30_S_d0_1 h_S_) main_v46 main_c_17
  let main_v48 : IVec S_ 1 := andi main_v43 main_v47
  let main_v49 : FVec F S5 .f32 := Host.absf main_arg13
  let main_cst_18 : FVec F S_ .f32 := constant S_ .f32 0x7F800000#32
  let main_v50 : FVec F S5 .f32 := broadcastInDim S5 ![] bcast_S_S5 main_cst_18
  fn_part3 (F := F) main_arg14 main_arg15 main_arg16 main_arg17 main_v48 main_v49 main_v50

def fn_part1 {F : FTy → Type} [FloatOps F] (main_arg7 : FVec F S32 .f32) (main_arg8 : FVec F S30x18 .f32) (main_arg9 : FVec F S30 .f32) (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) (main_v13 : IVec S_ 1) (main_v16 : IVec S32x96 1) : IVec S_ 1 :=
  let main_c_5 : IVec S_ 1 := constantI S_ 1 1#1
  let main_v17 : IVec S_ 1 := (fun x v => Host.reduce IntOp.andi x v reducesTo_S32x96_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S30x18 .f32 := Host.absf main_arg8
  let main_cst_8 : FVec F S_ .f32 := constant S_ .f32 0x7F800000#32
  let main_v25 : FVec F S30x18 .f32 := broadcastInDim S30x18 ![] bcast_S_S30x18 main_cst_8
  let main_v26 : IVec S30x18 1 := cmpf .olt main_v24 main_v25
  let main_c_9 : IVec S_ 1 := constantI S_ 1 1#1
  let main_v27 : IVec S_ 1 := (fun x v => Host.reduce IntOp.andi x v reducesTo_S30x18_S_d0_1 h_S_) main_v26 main_c_9
  let main_v28 : IVec S_ 1 := andi main_v23 main_v27
  let main_v29 : FVec F S30 .f32 := Host.absf main_arg9
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : IVec S1000000 32) (main_arg1 : IVec S1000000 32) (main_arg2 : IVec S100000x3 32) (main_arg3 : FVec F S100000x32 .f32) (main_arg4 : FVec F S100000x27 .f32) (main_arg5 : FVec F S100000x18 .f32) (main_arg6 : FVec F S32x96 .f32) (main_arg7 : FVec F S32 .f32) (main_arg8 : FVec F S30x18 .f32) (main_arg9 : FVec F S30 .f32) (main_arg10 : FVec F S30x30 .f32) (main_arg11 : FVec F S30 .f32) (main_arg12 : FVec F S5x30 .f32) (main_arg13 : FVec F S5 .f32) (main_arg14 : FVec F S8x96 .f32) (main_arg15 : FVec F S8 .f32) (main_arg16 : FVec F S1x8 .f32) (main_arg17 : FVec F S1 .f32) : IVec S_ 1 :=
  let main_v0 : FVec F S100000x32 .f32 := Host.absf main_arg3
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x27 .f32 := Host.absf main_arg4
  let main_cst_0 : FVec F S_ .f32 := constant S_ .f32 0x7F800000#32
  let main_v5 : FVec F S100000x27 .f32 := broadcastInDim S100000x27 ![] bcast_S_S100000x27 main_cst_0
  let main_v6 : IVec S100000x27 1 := cmpf .olt main_v4 main_v5
  let main_c_1 : IVec S_ 1 := constantI S_ 1 1#1
  let main_v7 : IVec S_ 1 := (fun x v => Host.reduce IntOp.andi x v reducesTo_S100000x27_S_d0_1 h_S_) main_v6 main_c_1
  let main_v8 : IVec S_ 1 := andi main_v3 main_v7
  let main_v9 : FVec F S100000x18 .f32 := Host.absf main_arg5
  let main_cst_2 : FVec F S_ .f32 := constant S_ .f32 0x7F800000#32
  let main_v10 : FVec F S100000x18 .f32 := broadcastInDim S100000x18 ![] bcast_S_S100000x18 main_cst_2
  let main_v11 : IVec S100000x18 1 := cmpf .olt main_v9 main_v10
  let main_c_3 : IVec S_ 1 := constantI S_ 1 1#1
  let main_v12 : IVec S_ 1 := (fun x v => Host.reduce IntOp.andi x v reducesTo_S100000x18_S_d0_1 h_S_) main_v11 main_c_3
  let main_v13 : IVec S_ 1 := andi main_v8 main_v12
  let main_v14 : FVec F S32x96 .f32 := Host.absf main_arg6
  let main_cst_4 : FVec F S_ .f32 := constant S_ .f32 0x7F800000#32
  let main_v15 : FVec F S32x96 .f32 := broadcastInDim S32x96 ![] bcast_S_S32x96 main_cst_4
  let main_v16 : IVec S32x96 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩
abbrev S1000000x1 : Shape := ⟨2, ![1000000, 1]⟩
abbrev S1000000x3 : Shape := ⟨2, ![1000000, 3]⟩
abbrev S1000000x3x1 : Shape := ⟨3, ![1000000, 3, 1]⟩
abbrev S1000000x3x32 : Shape := ⟨3, ![1000000, 3, 32]⟩
abbrev S1000000x96 : Shape := ⟨2, ![1000000, 96]⟩
abbrev S1000000x27 : Shape := ⟨2, ![1000000, 27]⟩
abbrev S1000000x18 : Shape := ⟨2, ![1000000, 18]⟩
abbrev S2000x96 : Shape := ⟨2, ![2000, 96]⟩
abbrev S2000x27 : Shape := ⟨2, ![2000, 27]⟩
abbrev S2000x18 : Shape := ⟨2, ![2000, 18]⟩
abbrev S2000x1 : Shape := ⟨2, ![2000, 1]⟩
abbrev S18x30 : Shape := ⟨2, ![18, 30]⟩
abbrev S2000x30 : Shape := ⟨2, ![2000, 30]⟩
abbrev S1x30 : Shape := ⟨2, ![1, 30]⟩
abbrev S30x5 : Shape := ⟨2, ![30, 5]⟩
abbrev S2000x5 : Shape := ⟨2, ![2000, 5]⟩
abbrev S1x5 : Shape := ⟨2, ![1, 5]⟩
abbrev S2000x32 : Shape := ⟨2, ![2000, 32]⟩
abbrev S96x32 : Shape := ⟨2, ![96, 32]⟩
abbrev S1x32 : Shape := ⟨2, ![1, 32]⟩
abbrev S96x8 : Shape := ⟨2, ![96, 8]⟩
abbrev S2000x8 : Shape := ⟨2, ![2000, 8]⟩
abbrev S8x1 : Shape := ⟨2, ![8, 1]⟩
abbrev S1x1 : Shape := ⟨2, ![1, 1]⟩

abbrev nBuf : Space → Nat
  | .hbm => 56
  | .vmem => 20
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x3, .i32⟩
  | .hbm, ⟨3, _⟩ => ⟨S100000x32, .f32⟩
  | .hbm, ⟨4, _⟩ => ⟨S100000x27, .f32⟩
  | .hbm, ⟨5, _⟩ => ⟨S100000x18, .f32⟩
  | .hbm, ⟨6, _⟩ => ⟨S32x96, .f32⟩
  | .hbm, ⟨7, _⟩ => ⟨S32, .f32⟩
  | .hbm, ⟨8, _⟩ => ⟨S30x18, .f32⟩
  | .hbm, ⟨9, _⟩ => ⟨S30, .f32⟩
  | .hbm, ⟨10, _⟩ => ⟨S30x30, .f32⟩
  | .hbm, ⟨11, _⟩ => ⟨S30, .f32⟩
  | .hbm, ⟨12, _⟩ => ⟨S5x30, .f32⟩
  | .hbm, ⟨13, _⟩ => ⟨S5, .f32⟩
  | .hbm, ⟨14, _⟩ => ⟨S8x96, .f32⟩
  | .hbm, ⟨15, _⟩ => ⟨S8, .f32⟩
  | .hbm, ⟨16, _⟩ => ⟨S1x8, .f32⟩
  | .hbm, ⟨17, _⟩ => ⟨S1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x3, .i32⟩
  | .hbm, ⟨27, _⟩ => ⟨S_, .i32⟩
  | .hbm, ⟨28, _⟩ => ⟨S1000000x3, .i32⟩
  | .hbm, ⟨29, _⟩ => ⟨S1000000x3, .i1⟩
  | .hbm, ⟨30, _⟩ => ⟨S_, .i32⟩
  | .hbm, ⟨31, _⟩ => ⟨S1000000x3, .i32⟩
  | .hbm, ⟨32, _⟩ => ⟨S1000000x3, .i32⟩
  | .hbm, ⟨33, _⟩ => ⟨S1000000x3, .i32⟩
  | .hbm, ⟨34, _⟩ => ⟨S1000000x3x1, .i32⟩
  | .hbm, ⟨35, _⟩ => ⟨S1000000x3x32, .f32⟩
  | .hbm, ⟨36, _⟩ => ⟨S1000000x96, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x27, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x18, .f32⟩
  | .hbm, ⟨55, _⟩ => ⟨S1000000x1, .f32⟩
  | .local _ .vmem, ⟨0, _⟩ => ⟨S2000x96, .f32⟩
  | .local _ .vmem, ⟨1, _⟩ => ⟨S2000x96, .f32⟩
  | .local _ .vmem, ⟨2, _⟩ => ⟨S2000x27, .f32⟩
  | .local _ .vmem, ⟨3, _⟩ => ⟨S2000x27, .f32⟩
  | .local _ .vmem, ⟨4, _⟩ => ⟨S2000x18, .f32⟩
  | .local _ .vmem, ⟨5, _⟩ => ⟨S2000x18, .f32⟩
  | .local _ .vmem, ⟨6, _⟩ => ⟨S32x96, .f32⟩
  | .local _ .vmem, ⟨7, _⟩ => ⟨S32, .f32⟩
  | .local _ .vmem, ⟨8, _⟩ => ⟨S30x18, .f32⟩
  | .local _ .vmem, ⟨9, _⟩ => ⟨S30, .f32⟩
  | .local _ .vmem, ⟨10, _⟩ => ⟨S30x30, .f32⟩
  | .local _ .vmem, ⟨11, _⟩ => ⟨S30, .f32⟩
  | .local _ .vmem, ⟨12, _⟩ => ⟨S5x30, .f32⟩
  | .local _ .vmem, ⟨13, _⟩ => ⟨S5, .f32⟩
  | .local _ .vmem, ⟨14, _⟩ => ⟨S8x96, .f32⟩
  | .local _ .vmem, ⟨15, _⟩ => ⟨S8, .f32⟩
  | .local _ .vmem, ⟨16, _⟩ => ⟨S1x8, .f32⟩
  | .local _ .vmem, ⟨17, _⟩ => ⟨S1, .f32⟩
  | .local _ .vmem, ⟨18, _⟩ => ⟨S2000x1, .f32⟩
  | .local _ .vmem, ⟨19, _⟩ => ⟨S2000x1, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S30x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  shapeCasts_S1000000x3x32_S1000000x96 : S1000000x3x32.ShapeCasts S1000000x96
  inb_S2000x18_S2000x18_0_0 : ∀ a, (![0, 0] : Fin 2 → Nat) a + S2000x18.size a ≤ S2000x18.size a
  h_S2000x18 : 0 < S2000x18.numel
  shapeCasts_S2000x18_S2000x18 : S2000x18.ShapeCasts S2000x18
  bitsLt_bf16_f32 : FTy.bits .bf16 < FTy.bits .f32
  inb_S30x18_S30x18_0_0 : ∀ a, (![0, 0] : Fin 2 → Nat) a + S30x18.size a ≤ S30x18.size a
  h_S30x18 : 0 < S30x18.numel
  transposes_S30x18_p1_0_S18x30 : S30x18.Transposes [1, 0] S18x30
  inb_S30_S30_0 : ∀ a, (![0] : Fin 1 → Nat) a + S30.size a ≤ S30.size a
  h_S30 : 0 < S30.numel
  shapeCasts_S30_S1x30 : S30.ShapeCasts S1x30
  broadcasts_S1x30_S2000x30 : S1x30.Broadcasts S2000x30
  inb_S30x30_S30x30_0_0 : ∀ a, (![0, 0] : Fin 2 → Nat) a + S30x30.size a ≤ S30x30.size a
  h_S30x30 : 0 < S30x30.numel
  transposes_S30x30_p1_0_S30x30 : S30x30.Transposes [1, 0] S30x30
  inb_S5x30_S5x30_0_0 : ∀ a, (![0, 0] : Fin 2 → Nat) a + S5x30.size a ≤ S5x30.size a
  h_S5x30 : 0 < S5x30.numel
  transposes_S5x30_p1_0_S30x5 : S5x30.Transposes [1, 0] S30x5
  inb_S5_S5_0 : ∀ a, (![0] : Fin 1 → Nat) a + S5.size a ≤ S5.size a
  h_S5 : 0 < S5.numel
  shapeCasts_S5_S1x5 : S5.ShapeCasts S1x5
  broadcasts_S1x5_S2000x5 : S1x5.Broadcasts S2000x5
  inb_S2000x27_S2000x27_0_0 : ∀ a, (![0, 0] : Fin 2 → Nat) a + S2000x27.size a ≤ S2000x27.size a
  h_S2000x27 : 0 < S2000x27.numel
  shapeCasts_S2000x27_S2000x27 : S2000x27.ShapeCasts S2000x27
  concatenates_S2000x27_S2000x5_S2000x32_d1 : Shape.Concatenates [S2000x27, S2000x5] S2000x32 1
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S32x96_S32x96_0_0 : ∀ a, (![0, 0] : Fin 2 → Nat) a + S32x96.size a ≤ S32x96.size a
  h_S32x96 : 0 < S32x96.numel
  transposes_S32x96_p1_0_S96x32 : S32x96.Transposes [1, 0] S96x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  concatenates_S2000x32_S2000x32_S2000x32_S2000x96_d1 : Shape.Concatenates [S2000x32, S2000x32, S2000x32] S2000x96 1
  inb_S8x96_S8x96_0_0 : ∀ a, (![0, 0] : Fin 2 → Nat) a + S8x96.size a ≤ S8x96.size a
  h_S8x96 : 0 < S8x96.numel
  transposes_S8x96_p1_0_S96x8 : S8x96.Transposes [1, 0] S96x8
  inb_S8_S8_0 : ∀ a, (![0] : Fin 1 → Nat) a + S8.size a ≤ S8.size a
  h_S8 : 0 < S8.numel
  shapeCasts_S8_S1x8 : S8.ShapeCasts S1x8
  broadcasts_S1x8_S2000x8 : S1x8.Broadcasts S2000x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x3_S1000000x1_S1000000x3_1_0_n_n_0_1_13_wf : GatherDims.WF S100000x3 S1000000x1 S1000000x3 [1] [0] [] [0] [] 1 ![1, 3]
  gather_S100000x32_S1000000x3x1_S1000000x3x32_2_0_n_n_0_2_132_wf : GatherDims.WF S100000x32 S1000000x3x1 S1000000x3x32 [2] [0] [] [0] [] 2 ![1, 32]
  gather_S100000x27_S1000000x1_S1000000x27_1_0_n_n_0_1_127_wf : GatherDims.WF S100000x27 S1000000x1 S1000000x27 [1] [0] [] [0] [] 1 ![1, 27]
  gather_S100000x18_S1000000x1_S1000000x18_1_0_n_n_0_1_118_wf : GatherDims.WF S100000x18 S1000000x1 S1000000x18 [1] [0] [] [0] [] 1 ![1, 18]
  dot_S2000x18_S18x30_S2000x30_1_0_0_1_n_n_wf : DotDims.WF S2000x18 S18x30 S2000x30 [1] [0] [0] [1] [] []
  dot_S2000x30_S30x30_S2000x30_1_0_0_1_n_n_wf : DotDims.WF S2000x30 S30x30 S2000x30 [1] [0] [0] [1] [] []
  dot_S2000x30_S30x5_S2000x5_1_0_0_1_n_n_wf : DotDims.WF S2000x30 S30x5 S2000x5 [1] [0] [0] [1] [] []
  dot_S2000x96_S96x32_S2000x32_1_0_0_1_n_n_wf : DotDims.WF S2000x96 S96x32 S2000x32 [1] [0] [0] [1] [] []
  dot_S2000x96_S96x8_S2000x8_1_0_0_1_n_n_wf : DotDims.WF S2000x96 S96x8 S2000x8 [1] [0] [0] [1] [] []
  dot_S2000x8_S8x1_S2000x1_1_0_0_1_n_n_wf : DotDims.WF S2000x8 S8x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S1000000x96.size a
  hwx0_0 : ∀ i : grid0.Coords, EltTy.bits .f32 = 32 ∨ (Rect.block (s := S1000000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x27.size a ≤ S1000000x27.size a
  hwx0_1 : ∀ i : grid0.Coords, EltTy.bits .f32 = 32 ∨ (Rect.block (s := S1000000x27) S2000x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x18.size a ≤ S1000000x18.size a
  hwx0_2 : ∀ i : grid0.Coords, EltTy.bits .f32 = 32 ∨ (Rect.block (s := S1000000x18) S2000x18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x96.size a ≤ S32x96.size a
  hwx0_3 : ∀ i : grid0.Coords, EltTy.bits .f32 = 32 ∨ (Rect.block (s := S32x96) S32x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S30x18.size a ≤ S30x18.size a
  hwx0_5 : ∀ i : grid0.Coords, EltTy.bits .f32 = 32 ∨ (Rect.block (s := S30x18) S30x18.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30.size a ≤ S30.size a
  hwx0_6 : ∀ i : grid0.Coords, EltTy.bits .f32 = 32 ∨ (Rect.block (s := S30) S30.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S30x30.size a ≤ S30x30.size a
  hwx0_7 : ∀ i : grid0.Coords, EltTy.bits .f32 = 32 ∨ (Rect.block (s := S30x30) S30x30.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S30.size a ≤ S30.size a
  hwx0_8 : ∀ i : grid0.Coords, EltTy.bits .f32 = 32 ∨ (Rect.block (s := S30) S30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x30.size a ≤ S5x30.size a
  hwx0_9 : ∀ i : grid0.Coords, EltTy.bits .f32 = 32 ∨ (Rect.block (s := S5x30) S5x30.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5.size a ≤ S5.size a
  hwx0_10 : ∀ i : grid0.Coords, EltTy.bits .f32 = 32 ∨ (Rect.block (s := S5) S5.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x96.size a ≤ S8x96.size a
  hwx0_11 : ∀ i : grid0.Coords, EltTy.bits .f32 = 32 ∨ (Rect.block (s := S8x96) S8x96.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x8.size a ≤ S1x8.size a
  hwx0_13 : ∀ i : grid0.Coords, EltTy.bits .f32 = 32 ∨ (Rect.block (s := S1x8) S1x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x1.size a ≤ S1000000x1.size a
  hwx0_15 : ∀ i : grid0.Coords, EltTy.bits .f32 = 32 ∨ (Rect.block (s := S1000000x1) S2000x1.size (cc0_transform_15 i) (hinb0_15 i)).WholeWords (EltTy.packing .f32)

variable [Facts₀]

def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S100000x32_S1000000x3x1_S1000000x3x32_2_0_n_n_0_2_132 : GatherDims S100000x32 S1000000x3x1 S1000000x3x32 where
  offsetDims := [2]
  collapsedSliceDims := [0]
  operandBatchingDims := []
  startIndicesBatchingDims := []
  startIndexMap := [0]
  indexVectorDim := 2
  sliceSizes := ![1, 32]
  wf := gather_S100000x32_S1000000x3x1_S1000000x3x32_2_0_n_n_0_2_132_wf
def gather_S100000x27_S1000000x1_S1000000x27_1_0_n_n_0_1_127 : GatherDims S100000x27 S1000000x1 S1000000x27 where
  offsetDims := [1]
  collapsedSliceDims := [0]
  operandBatchingDims := []
  startIndicesBatchingDims := []
  startIndexMap := [0]
  indexVectorDim := 1
  sliceSizes := ![1, 27]
  wf := gather_S100000x27_S1000000x1_S1000000x27_1_0_n_n_0_1_127_wf
def gather_S100000x18_S1000000x1_S1000000x18_1_0_n_n_0_1_118 : GatherDims S100000x18 S1000000x1 S1000000x18 where
  offsetDims := [1]
  collapsedSliceDims := [0]
  operandBatchingDims := []
  startIndicesBatchingDims := []
  startIndexMap := [0]
  indexVectorDim := 1
  sliceSizes := ![1, 18]
  wf := gather_S100000x18_S1000000x1_S1000000x18_1_0_n_n_0_1_118_wf
def dot_S2000x18_S18x30_S2000x30_1_0_0_1_n_n : DotDims S2000x18 S18x30 S2000x30 where
  lhsContracting := [1]
  rhsContracting := [0]
  lhsNonContracting := [0]
  rhsNonContracting := [1]
  lhsBatch := []
  rhsBatch := []
  wf := dot_S2000x18_S18x30_S2000x30_1_0_0_1_n_n_wf
def dot_S2000x30_S30x30_S2000x30_1_0_0_1_n_n : DotDims S2000x30 S30x30 S2000x30 where
  lhsContracting := [1]
  rhsContracting := [0]
  lhsNonContracting := [0]
  rhsNonContracting := [1]
  lhsBatch := []
  rhsBatch := []
  wf := dot_S2000x30_S30x30_S2000x30_1_0_0_1_n_n_wf
def dot_S2000x30_S30x5_S2000x5_1_0_0_1_n_n : DotDims S2000x30 S30x5 S2000x5 where
  lhsContracting := [1]
  rhsContracting := [0]
  lhsNonContracting := [0]
  rhsNonContracting := [1]
  lhsBatch := []
  rhsBatch := []
  wf := dot_S2000x30_S30x5_S2000x5_1_0_0_1_n_n_wf
def dot_S2000x96_S96x32_S2000x32_1_0_0_1_n_n : DotDims S2000x96 S96x32 S2000x32 where
  lhsContracting := [1]
  rhsContracting := [0]
  lhsNonContracting := [0]
  rhsNonContracting := [1]
  lhsBatch := []
  rhsBatch := []
  wf := dot_S2000x96_S96x32_S2000x32_1_0_0_1_n_n_wf
def dot_S2000x96_S96x8_S2000x8_1_0_0_1_n_n : DotDims S2000x96 S96x8 S2000x8 where
  lhsContracting := [1]
  rhsContracting := [0]
  lhsNonContracting := [0]
  rhsNonContracting := [1]
  lhsBatch := []
  rhsBatch := []
  wf := dot_S2000x96_S96x8_S2000x8_1_0_0_1_n_n_wf
def dot_S2000x8_S8x1_S2000x1_1_0_0_1_n_n : DotDims S2000x8 S8x1 S2000x1 where
  lhsContracting := [1]
  rhsContracting := [0]
  lhsNonContracting := [0]
  rhsNonContracting := [1]
  lhsBatch := []
  rhsBatch := []
  wf := dot_S2000x8_S8x1_S2000x1_1_0_0_1_n_n_wf

abbrev win0_0 : Pipeline.Window sig grid0 :=
  Pipeline.Window.ofSpec (Memref.whole main_v14) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x18.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S30x18.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S30x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S5x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S5.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S8x96.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S1x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v29) S2000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1000000 : Shape := ⟨1, ![1000000]⟩
abbrev S100000x3 : Shape := ⟨2, ![100000, 3]⟩
abbrev S100000x32 : Shape := ⟨2, ![100000, 32]⟩
abbrev S100000x27 : Shape := ⟨2, ![100000, 27]⟩
abbrev S100000x18 : Shape := ⟨2, ![100000, 18]⟩
abbrev S32x96 : Shape := ⟨2, ![32, 96]⟩
abbrev S32 : Shape := ⟨1, ![32]⟩
abbrev S30x18 : Shape := ⟨2, ![30, 18]⟩
abbrev S30 : Shape := ⟨1, ![30]⟩
abbrev S30x30 : Shape := ⟨2, ![30, 30]⟩
abbrev S5x30 : Shape := ⟨2, ![5, 30]⟩
abbrev S5 : Shape := ⟨1, ![5]⟩
abbrev S8x96 : Shape := ⟨2, ![8, 96]⟩
abbrev S8 : Shape := ⟨1, ![8]⟩
abbrev S1x8 : Shape := ⟨2, ![1, 8]⟩
abbrev S1 : Shape := ⟨1, ![1]⟩
abbrev S_ : Shape := ⟨0, ![]⟩
abbrev S1000000x1 : Shape := ⟨2, ![1000000, 1]⟩
abbrev S1000000x18 : Shape := ⟨2, ![1000000, 18]⟩
abbrev S18x30 : Shape := ⟨2, ![18, 30]⟩
abbrev S1000000x30 : Shape := ⟨2, ![1000000, 30]⟩
abbrev S1x30 : Shape := ⟨2, ![1, 30]⟩
abbrev S30x5 : Shape := ⟨2, ![30, 5]⟩
abbrev S1000000x5 : Shape := ⟨2, ![1000000, 5]⟩
abbrev S1x5 : Shape := ⟨2, ![1, 5]⟩
abbrev S1000000x27 : Shape := ⟨2, ![1000000, 27]⟩
abbrev S1000000x32 : Shape := ⟨2, ![1000000, 32]⟩
abbrev S1000000x3 : Shape := ⟨2, ![1000000, 3]⟩
abbrev S1000000x3x1 : Shape := ⟨3, ![1000000, 3, 1]⟩
abbrev S1000000x3x32 : Shape := ⟨3, ![1000000, 3, 32]⟩
abbrev S1000000x96 : Shape := ⟨2, ![1000000, 96]⟩
abbrev S96x32 : Shape := ⟨2, ![96, 32]⟩
abbrev S1x32 : Shape := ⟨2, ![1, 32]⟩
abbrev S96x8 : Shape := ⟨2, ![96, 8]⟩
abbrev S1000000x8 : Shape := ⟨2, ![1000000, 8]⟩
abbrev S8x1 : Shape := ⟨2, ![8, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S100000x3, .i32⟩
  | .hbm, ⟨3, _⟩ => ⟨S100000x32, .f32⟩
  | .hbm, ⟨4, _⟩ => ⟨S100000x27, .f32⟩
  | .hbm, ⟨5, _⟩ => ⟨S100000x18, .f32⟩
  | .hbm, ⟨6, _⟩ => ⟨S32x96, .f32⟩
  | .hbm, ⟨7, _⟩ => ⟨S32, .f32⟩
  | .hbm, ⟨8, _⟩ => ⟨S30x18, .f32⟩
  | .hbm, ⟨9, _⟩ => ⟨S30, .f32⟩
  | .hbm, ⟨10, _⟩ => ⟨S30x30, .f32⟩
  | .hbm, ⟨11, _⟩ => ⟨S30, .f32⟩
  | .hbm, ⟨12, _⟩ => ⟨S5x30, .f32⟩
  | .hbm, ⟨13, _⟩ => ⟨S5, .f32⟩
  | .hbm, ⟨14, _⟩ => ⟨S8x96, .f32⟩
  | .hbm, ⟨15, _⟩ => ⟨S8, .f32⟩
  | .hbm, ⟨16, _⟩ => ⟨S1x8, .f32⟩
  | .hbm, ⟨17, _⟩ => ⟨S1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x18, .f32⟩
  | .hbm, ⟨27, _⟩ => ⟨S18x30, .f32⟩
  | .hbm, ⟨28, _⟩ => ⟨S1000000x30, .f32⟩
  | .hbm, ⟨29, _⟩ => ⟨S1x30, .f32⟩
  | .hbm, ⟨30, _⟩ => ⟨S1000000x30, .f32⟩
  | .hbm, ⟨31, _⟩ => ⟨S1000000x30, .f32⟩
  | .hbm, ⟨32, _⟩ => ⟨S30x30, .f32⟩
  | .hbm, ⟨33, _⟩ => ⟨S1000000x30, .f32⟩
  | .hbm, ⟨34, _⟩ => ⟨S1x30, .f32⟩
  | .hbm, ⟨35, _⟩ => ⟨S1000000x30, .f32⟩
  | .hbm, ⟨36, _⟩ => ⟨S1000000x30, .f32⟩
  | .hbm, ⟨37, _⟩ => ⟨S30x5, .f32⟩
  | .hbm, ⟨38, _⟩ => ⟨S1000000x5, .f32⟩
  | .hbm, ⟨39, _⟩ => ⟨S1x5, .f32⟩
  | .hbm, ⟨40, _⟩ => ⟨S1000000x5, .f32⟩
  | .hbm, ⟨41, _⟩ => ⟨S1000000x5, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x27, .f32⟩
  | .hbm, ⟨51, _⟩ => ⟨S1000000x32, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x3, .i32⟩
  | .hbm, ⟨61, _⟩ => ⟨S_, .i32⟩
  | .hbm, ⟨62, _⟩ => ⟨S1000000x3, .i32⟩
  | .hbm, ⟨63, _⟩ => ⟨S1000000x3, .i1⟩
  | .hbm, ⟨64, _⟩ => ⟨S_, .i32⟩
  | .hbm, ⟨65, _⟩ => ⟨S1000000x3, .i32⟩
  | .hbm, ⟨66, _⟩ => ⟨S1000000x3, .i32⟩
  | .hbm, ⟨67, _⟩ => ⟨S1000000x3, .i32⟩
  | .hbm, ⟨68, _⟩ => ⟨S1000000x3x1, .i32⟩
  | .hbm, ⟨69, _⟩ => ⟨S1000000x3x32, .f32⟩
  | .hbm, ⟨70, _⟩ => ⟨S1000000x96, .f32⟩
  | .hbm, ⟨71, _⟩ => ⟨S96x32, .f32⟩
  | .hbm, ⟨72, _⟩ => ⟨S1000000x32, .f32⟩
  | .hbm, ⟨73, _⟩ => ⟨S1x32, .f32⟩
  | .hbm, ⟨74, _⟩ => ⟨S1000000x32, .f32⟩
  | .hbm, ⟨75, _⟩ => ⟨S1000000x32, .f32⟩
  | .hbm, ⟨76, _⟩ => ⟨S1000000x32, .f32⟩
  | .hbm, ⟨77, _⟩ => ⟨S1000000x96, .f32⟩
  | .hbm, ⟨78, _⟩ => ⟨S96x8, .f32⟩
  | .hbm, ⟨79, _⟩ => ⟨S1000000x8, .f32⟩
  | .hbm, ⟨80, _⟩ => ⟨S1x8, .f32⟩
  | .hbm, ⟨81, _⟩ => ⟨S1000000x8, .f32⟩
  | .hbm, ⟨82, _⟩ => ⟨S1000000x8, .f32⟩
  | .hbm, ⟨83, _⟩ => ⟨S_, .f32⟩
  | .hbm, ⟨84, _⟩ => ⟨S1000000x8, .f32⟩
  | .hbm, ⟨85, _⟩ => ⟨S1000000x8, .f32⟩
  | .hbm, ⟨86, _⟩ => ⟨S8x1, .f32⟩
  | .hbm, ⟨87, _⟩ => ⟨S1000000x1, .f32⟩
  | .hbm, ⟨88, _⟩ => ⟨S1x1, .f32⟩
  | .hbm, ⟨89, _⟩ => ⟨S1000000x1, .f32⟩
  | .hbm, ⟨90, _⟩ => ⟨S1000000x1, .f32⟩
  | .hbm, ⟨91, _⟩ => ⟨S1000000x1, .f32⟩
  | .hbm, ⟨92, _⟩ => ⟨S1000000x1, .f32⟩
  | .hbm, ⟨93, _⟩ => ⟨S_, .f32⟩
  | .hbm, ⟨94, _⟩ => ⟨S1000000x1, .f32⟩
  | .hbm, ⟨95, _⟩ => ⟨S1000000x1, .f32⟩
  | .hbm, ⟨96, _⟩ => ⟨S_, .f32⟩
  | .hbm, ⟨97, _⟩ => ⟨S1000000x1, .f32⟩
  | .hbm, ⟨98, _⟩ => ⟨S1000000x1, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S30x18_S18x30_1_0 : S30x18.Transposes [1, 0] S18x30
  bcast_S30_S1x30_1 : S30.BroadcastsInDim S1x30 (![1] : Fin 1 → Fin S1x30.rank)
  bcast_S1x30_S1000000x30_0_1 : S1x30.BroadcastsInDim S1000000x30 (![0, 1] : Fin 2 → Fin S1000000x30.rank)
  transposes_S30x30_S30x30_1_0 : S30x30.Transposes [1, 0] S30x30
  transposes_S5x30_S30x5_1_0 : S5x30.Transposes [1, 0] S30x5
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  concatenates_S1000000x27_S1000000x5_S1000000x32_d1 : Shape.Concatenates [S1000000x27, S1000000x5] S1000000x32 1
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  shapeCasts_S1000000x3x32_S1000000x96 : S1000000x3x32.ShapeCasts S1000000x96
  transposes_S32x96_S96x32_1_0 : S32x96.Transposes [1, 0] S96x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  concatenates_S1000000x32_S1000000x32_S1000000x32_S1000000x96_d1 : Shape.Concatenates [S1000000x32, S1000000x32, S1000000x32] S1000000x96 1
  transposes_S8x96_S96x8_1_0 : S8x96.Transposes [1, 0] S96x8
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S_S1000000x8 : S_.BroadcastsInDim S1000000x8 (![] : Fin 0 → Fin S1000000x8.rank)
  transposes_S1x8_S8x1_1_0 : S1x8.Transposes [1, 0] S8x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x18_S1000000x1_S1000000x18_1_0_n_n_0_1_118_wf : GatherDims.WF S100000x18 S1000000x1 S1000000x18 [1] [0] [] [0] [] 1 ![1, 18]
  dot_S1000000x18_S18x30_S1000000x30_1_0_0_1_n_n_wf : DotDims.WF S1000000x18 S18x30 S1000000x30 [1] [0] [0] [1] [] []
  dot_S1000000x30_S30x30_S1000000x30_1_0_0_1_n_n_wf : DotDims.WF S1000000x30 S30x30 S1000000x30 [1] [0] [0] [1] [] []
  dot_S1000000x30_S30x5_S1000000x5_1_0_0_1_n_n_wf : DotDims.WF S1000000x30 S30x5 S1000000x5 [1] [0] [0] [1] [] []
  gather_S100000x27_S1000000x1_S1000000x27_1_0_n_n_0_1_127_wf : GatherDims.WF S100000x27 S1000000x1 S1000000x27 [1] [0] [] [0] [] 1 ![1, 27]
  gather_S100000x3_S1000000x1_S1000000x3_1_0_n_n_0_1_13_wf : GatherDims.WF S100000x3 S1000000x1 S1000000x3 [1] [0] [] [0] [] 1 ![1, 3]
  gather_S100000x32_S1000000x3x1_S1000000x3x32_2_0_n_n_0_2_132_wf : GatherDims.WF S100000x32 S1000000x3x1 S1000000x3x32 [2] [0] [] [0] [] 2 ![1, 32]
  dot_S1000000x96_S96x32_S1000000x32_1_0_0_1_n_n_wf : DotDims.WF S1000000x96 S96x32 S1000000x32 [1] [0] [0] [1] [] []
  dot_S1000000x96_S96x8_S1000000x8_1_0_0_1_n_n_wf : DotDims.WF S1000000x96 S96x8 S1000000x8 [1] [0] [0] [1] [] []
  dot_S1000000x8_S8x1_S1000000x1_1_0_0_1_n_n_wf : DotDims.WF S1000000x8 S8x1 S1000000x1 [1] [0] [0] [1] [] []

variable [Facts₀]

def gather_S100000x18_S1000000x1_S1000000x18_1_0_n_n_0_1_118 : GatherDims S100000x18 S1000000x1 S1000000x18 where
  offsetDims := [1]
  collapsedSliceDims := [0]
  operandBatchingDims := []
  startIndicesBatchingDims := []
  startIndexMap := [0]
  indexVectorDim := 1
  sliceSizes := ![1, 18]
  wf := gather_S100000x18_S1000000x1_S1000000x18_1_0_n_n_0_1_118_wf
def dot_S1000000x18_S18x30_S1000000x30_1_0_0_1_n_n : DotDims S1000000x18 S18x30 S1000000x30 where
  lhsContracting := [1]
  rhsContracting := [0]
  lhsNonContracting := [0]
  rhsNonContracting := [1]
  lhsBatch := []
  rhsBatch := []
  wf := dot_S1000000x18_S18x30_S1000000x30_1_0_0_1_n_n_wf
def dot_S1000000x30_S30x30_S1000000x30_1_0_0_1_n_n : DotDims S1000000x30 S30x30 S1000000x30 where
  lhsContracting := [1]
  rhsContracting := [0]
  lhsNonContracting := [0]
  rhsNonContracting := [1]
  lhsBatch := []
  rhsBatch := []
  wf := dot_S1000000x30_S30x30_S1000000x30_1_0_0_1_n_n_wf
def dot_S1000000x30_S30x5_S1000000x5_1_0_0_1_n_n : DotDims S1000000x30 S30x5 S1000000x5 where
  lhsContracting := [1]
  rhsContracting := [0]
  lhsNonContracting := [0]
  rhsNonContracting := [1]
  lhsBatch := []
  rhsBatch := []
  wf := dot_S1000000x30_S30x5_S1000000x5_1_0_0_1_n_n_wf
def gather_S100000x27_S1000000x1_S1000000x27_1_0_n_n_0_1_127 : GatherDims S100000x27 S1000000x1 S1000000x27 where
  offsetDims := [1]
  collapsedSliceDims := [0]
  operandBatchingDims := []
  startIndicesBatchingDims := []
  startIndexMap := [0]
  indexVectorDim := 1
  sliceSizes := ![1, 27]
  wf := gather_S100000x27_S1000000x1_S1000000x27_1_0_n_n_0_1_127_wf
def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S100000x32_S1000000x3x1_S1000000x3x32_2_0_n_n_0_2_132 : GatherDims S100000x32 S1000000x3x1 S1000000x3x32 where
  offsetDims := [2]
  collapsedSliceDims := [0]
  operandBatchingDims := []
  startIndicesBatchingDims := []
  startIndexMap := [0]
  indexVectorDim := 2
  sliceSizes := ![1, 32]
  wf := gather_S100000x32_S1000000x3x1_S1000000x3x32_2_0_n_n_0_2_132_wf
def dot_S1000000x96_S96x32_S1000000x32_1_0_0_1_n_n : DotDims S1000000x96 S96x32 S1000000x32 where
  lhsContracting := [1]
  rhsContracting := [0]
  lhsNonContracting := [0]
  rhsNonContracting := [1]
  lhsBatch := []
  rhsBatch := []
  wf := dot_S1000000x96_S96x32_S1000000x32_1_0_0_1_n_n_wf
def dot_S1000000x96_S96x8_S1000000x8_1_0_0_1_n_n : DotDims S1000000x96 S96x8 S1000000x8 where
  lhsContracting := [1]
  rhsContracting := [0]
  lhsNonContracting := [0]
  rhsNonContracting := [1]
  lhsBatch := []
  rhsBatch := []
  wf := dot_S1000000x96_S96x8_S1000000x8_1_0_0_1_n_n_wf
def dot_S1000000x8_S8x1_S1000000x1_1_0_0_1_n_n : DotDims S1000000x8 S8x1 S1000000x1 where
  lhsContracting := [1]
  rhsContracting := [0]
  lhsNonContracting := [0]
  rhsNonContracting := [1]
  lhsBatch := []
  rhsBatch := []
  wf := dot_S1000000x8_S8x1_S1000000x1_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RowScore.lean ====
/-
  One query's score as a function of its own three gathered rows.

  For a row of 96 member-embedding entries `a`, 27 item-id entries `b` and 18 genre entries `c`:
    g    = W3 (W2 (W1 c + b1) + b2) + b3                (three affine maps, 18 → 30 → 30 → 5)
    item = b ++ g                                        (32 entries)
    grp  = Wm a + bm                                     (32 entries)
    new  = (grp · item) ++ grp ++ item                   (96 entries; the product is entry by entry)
    h    = max (Wp1 new + bp1) 0                         (8 entries)
    out  = 1 / (1 + exp (-(Wp2 h + bp2)))
  Every affine map is  (W x + b) q = Σₖ x k · W q k + b q  on the extended reals. Nothing here mixes rows, so an
  array of R rows is scored row by row, whatever R is: the lemmas below read one affine layer, the two
  concatenations and the closing sigmoid at an entry (p, q) of an [R, ·] array, once in the form a tile of a
  kernel computes them and once in the form the host does.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«166346_j77687368450112_1_alg».proof.Proof.LibPlainProduct

noncomputable section

namespace Cert.RowScore

open Idealize.ShloMosaic Idealize.ShloMosaic.ValueIdx

/-! ## The row functions -/

/-- An affine map on one row: entry q is Σₖ x k · W q k + b q. -/
def lin {K N : ℕ} (W : (⟨2, ![N, K]⟩ : Shape).Idx → EReal) (b : (⟨1, ![N]⟩ : Shape).Idx → EReal)
    (x : Fin K → EReal) : Fin N → EReal :=
  fun q => (∑ k : Fin K, x k * W (ix2 q k)) + b (ix1 q)

/-- 27 entries followed by 5. -/
def itemRow (b : Fin 27 → EReal) (g : Fin 5 → EReal) : Fin 32 → EReal :=
  fun j => if h : j.val < 27 then b ⟨j.val, h⟩ else g ⟨j.val - 27, by omega⟩

/-- Three runs of 32 entries laid end to end. -/
def newRow (e g i : Fin 32 → EReal) : Fin 96 → EReal :=
  fun j => if h : j.val < 32 then e ⟨j.val, h⟩
    else if h2 : j.val < 64 then g ⟨j.val - 32, by omega⟩ else i ⟨j.val - 64, by omega⟩

/-- The weights and biases of the five affine maps and the group map. -/
structure Params where
  Wm : (⟨2, ![32, 96]⟩ : Shape).Idx → EReal
  bm : (⟨1, ![32]⟩ : Shape).Idx → EReal
  W1 : (⟨2, ![30, 18]⟩ : Shape).Idx → EReal
  b1 : (⟨1, ![30]⟩ : Shape).Idx → EReal
  W2 : (⟨2, ![30, 30]⟩ : Shape).Idx → EReal
  b2 : (⟨1, ![30]⟩ : Shape).Idx → EReal
  W3 : (⟨2, ![5, 30]⟩ : Shape).Idx → EReal
  b3 : (⟨1, ![5]⟩ : Shape).Idx → EReal
  Wp1 : (⟨2, ![8, 96]⟩ : Shape).Idx → EReal
  bp1 : (⟨1, ![8]⟩ : Shape).Idx → EReal
  Wp2 : (⟨2, ![1, 8]⟩ : Shape).Idx → EReal
  bp2 : (⟨1, ![1]⟩ : Shape).Idx → EReal

/-- The genre part of the item row: three affine maps in a row. -/
def genreRow (W1 : (⟨2, ![30, 18]⟩ : Shape).Idx → EReal) (b1 : (⟨1, ![30]⟩ : Shape).Idx → EReal)
    (W2 : (⟨2, ![30, 30]⟩ : Shape).Idx → EReal) (b2 : (⟨1, ![30]⟩ : Shape).Idx → EReal)
    (W3 : (⟨2, ![5, 30]⟩ : Shape).Idx → EReal) (b3 : (⟨1, ![5]⟩ : Shape).Idx → EReal)
    (c : Fin 18 → EReal) : Fin 5 → EReal :=
  lin W3 b3 (lin W2 b2 (lin W1 b1 c))

/-- The item row: the id entries followed by the genre part. -/
def itemOf (W1 : (⟨2, ![30, 18]⟩ : Shape).Idx → EReal) (b1 : (⟨1, ![30]⟩ : Shape).Idx → EReal)
    (W2 : (⟨2, ![30, 30]⟩ : Shape).Idx → EReal) (b2 : (⟨1, ![30]⟩ : Shape).Idx → EReal)
    (W3 : (⟨2, ![5, 30]⟩ : Shape).Idx → EReal) (b3 : (⟨1, ![5]⟩ : Shape).Idx → EReal)
    (b : Fin 27 → EReal) (c : Fin 18 → EReal) : Fin 32 → EReal :=
  itemRow b (genreRow W1 b1 W2 b2 W3 b3 c)

/-- The 96 entries the prediction maps read: the product entry by entry, the group row, the item row. -/
def newOf (grp item : Fin 32 → EReal) : Fin 96 → EReal :=
  newRow (fun j => grp j * item j) grp item

/-- The rectified hidden row, mapped to one number, through the sigmoid. -/
def scoreOf (Wp1 : (⟨2, ![8, 96]⟩ : Shape).Idx → EReal) (bp1 : (⟨1, ![8]⟩ : Shape).Idx → EReal)
    (Wp2 : (⟨2, ![1, 8]⟩ : Shape).Idx → EReal) (bp2 : (⟨1, ![1]⟩ : Shape).Idx → EReal)
    (new : Fin 96 → EReal) : EReal :=
  Ideal.logistic (lin Wp2 bp2 (fun q => max (lin Wp1 bp1 new q) 0) (0 : Fin 1))

/-- The score of one query. -/
def rowOut (P : Params) (a : Fin 96 → EReal) (b : Fin 27 → EReal) (c : Fin 18 → EReal) : EReal :=
  scoreOf P.Wp1 P.bp1 P.Wp2 P.bp2
    (newOf (lin P.Wm P.bm a) (itemOf P.W1 P.b1 P.W2 P.b2 P.W3 P.b3 b c))

/-- R queries scored row by row: entry (p, 0) is the score of row p of the three gathered arrays. -/
def scoreArr {R : ℕ} (P : Params) (A : (⟨2, ![R, 96]⟩ : Shape).Idx → EReal) (B : (⟨2, ![R, 27]⟩ : Shape).Idx → EReal)
    (C : (⟨2, ![R, 18]⟩ : Shape).Idx → EReal) : (⟨2, ![R, 1]⟩ : Shape).Idx → EReal :=
  fun i => rowOut P (fun k => A (ix2 ⟨(i 0).val, idx2_lt0 i⟩ k)) (fun k => B (ix2 ⟨(i 0).val, idx2_lt0 i⟩ k))
    (fun k => C (ix2 ⟨(i 0).val, idx2_lt0 i⟩ k))

theorem scoreArr_apply {R : ℕ} (P : Params) (A : (⟨2, ![R, 96]⟩ : Shape).Idx → EReal)
    (B : (⟨2, ![R, 27]⟩ : Shape).Idx → EReal) (C : (⟨2, ![R, 18]⟩ : Shape).Idx → EReal) (p : Fin R) (u : Fin 1) :
    scoreArr P A B C (ix2 p u)
      = rowOut P (fun k => A (ix2 p k)) (fun k => B (ix2 p k)) (fun k => C (ix2 p k)) := rfl

/-! ## One affine layer of an [R, K] array, read at (p, q) -/

/-- As a kernel tile computes it: both operands narrowed to sixteen bits (no change of value on the extended
    reals), the product with the transposed weights into a zero accumulator, plus the bias as a row spread over
    the R rows. -/
theorem tile_layer {R K N : ℕ} (X : FVec Ideal ⟨2, ![R, K]⟩ .f32) (W : FVec Ideal ⟨2, ![N, K]⟩ .f32)
    (b : FVec Ideal ⟨1, ![N]⟩ .f32) (hx hw : FTy.bf16.bits < FTy.f32.bits)
    (hT : (⟨2, ![N, K]⟩ : Shape).Transposes [1, 0] ⟨2, ![K, N]⟩)
    (hS : (⟨1, ![N]⟩ : Shape).ShapeCasts ⟨2, ![1, N]⟩)
    (hB : (⟨2, ![1, N]⟩ : Shape).Broadcasts ⟨2, ![R, N]⟩) (p : Fin R) (q : Fin N) :
    addf (matmul (F := Ideal) (DotDims.plain R K N) none (truncf .bf16 X hx)
            (transpose ⟨2, ![K, N]⟩ [1, 0] (truncf .bf16 W hw) hT)
            (constant (F := Ideal) ⟨2, ![R, N]⟩ .f32 0x00000000#32))
        (broadcastTo ⟨2, ![R, N]⟩ (shapeCast ⟨2, ![1, N]⟩ b hS) hB) (ix2 p q)
      = lin W b (fun k => X (ix2 p k)) q :=
  congrArg₂ (· + ·)
    ((Cert.PlainProduct.matmul_zero_apply none (truncf .bf16 X hx) _ p q).trans
      (Finset.sum_congr rfl fun x _ => congrArg (X (ix2 p x) * ·) (transpose_ix2_apply (truncf .bf16 W hw) hT x q)))
    ((broadcastTo_1b_ab_apply _ hB p q).trans (shapeCast_a_1a_apply b hS 0 q))

/-- As the host computes it: the product with the transposed weights, plus the bias made a row and then
    spread over the R rows. -/
theorem host_layer {R K N : ℕ} (X : FVec Ideal ⟨2, ![R, K]⟩ .f32) (W : FVec Ideal ⟨2, ![N, K]⟩ .f32)
    (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    addf (Host.dotGeneral (F := Ideal) (DotDims.plain R K N) none X (transpose ⟨2, ![K, N]⟩ [1, 0] W hT))
        (broadcastInDim ⟨2, ![R, N]⟩ ![0, 1] h2 (broadcastInDim ⟨2, ![1, N]⟩ ![1] h1 b)) (ix2 p q)
      = lin W b (fun k => X (ix2 p k)) q := by
  refine congrArg₂ (· + ·)
    ((Cert.PlainProduct.dotGeneral_apply none X _ p q).trans
      (Finset.sum_congr rfl fun x _ => congrArg (X (ix2 p x) * ·) (transpose_ix2_apply W hT x q))) ?_
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-! ## The two concatenations along the columns, read at (p, j) -/

/-- [R, 27] beside [R, 5]. -/
theorem cat_item {R : ℕ} (x₁ : (⟨2, ![R, 27]⟩ : Shape).Idx → EReal) (x₂ : (⟨2, ![R, 5]⟩ : Shape).Idx → EReal)
    (h : Shape.Concatenates [(⟨2, ![R, 27]⟩ : Shape), ⟨2, ![R, 5]⟩] ⟨2, ![R, 32]⟩ 1) (p : Fin R) (j : Fin 32) :
    concatenate ⟨2, ![R, 32]⟩ 1 [⟨⟨2, ![R, 27]⟩, x₁⟩, ⟨⟨2, ![R, 5]⟩, x₂⟩] h (ix2 p j)
      = itemRow (fun k => x₁ (ix2 p k)) (fun k => x₂ (ix2 p k)) j := by
  unfold itemRow
  by_cases hj : j.val < 27
  · rw [dif_pos hj]
    exact concatenate_pair_apply_left 1 x₁ x₂ h (ix2 p j) rfl (ix2 p ⟨j.val, hj⟩)
      (fun b => match b with | ⟨0, _⟩ => rfl | ⟨1, _⟩ => rfl)
  · rw [dif_neg hj]
    exact concatenate_pair_apply_right 1 x₁ x₂ h (ix2 p j) rfl rfl (ix2 p ⟨j.val - 27, by omega⟩)
      (fun b hb => match b with | ⟨0, _⟩ => rfl | ⟨1, _⟩ => absurd rfl hb)
      (by show j.val - 27 + 27 = j.val; omega)

/-- Three [R, 32] arrays side by side. -/
theorem cat_new {R : ℕ} (x₁ x₂ x₃ : (⟨2, ![R, 32]⟩ : Shape).Idx → EReal)
    (h : Shape.Concatenates [(⟨2, ![R, 32]⟩ : Shape), ⟨2, ![R, 32]⟩, ⟨2, ![R, 32]⟩] ⟨2, ![R, 96]⟩ 1) (p : Fin R) (j : Fin 96) :
    concatenate ⟨2, ![R, 96]⟩ 1 [⟨⟨2, ![R, 32]⟩, x₁⟩, ⟨⟨2, ![R, 32]⟩, x₂⟩, ⟨⟨2, ![R, 32]⟩, x₃⟩] h (ix2 p j)
      = newRow (fun k => x₁ (ix2 p k)) (fun k => x₂ (ix2 p k)) (fun k => x₃ (ix2 p k)) j := by
  unfold newRow
  by_cases hj : j.val < 32
  · rw [dif_pos hj]
    exact concatenate_apply_piece (t := ⟨2, ![R, 96]⟩) 1 [(⟨⟨2, ![R, 32]⟩, x₁⟩ : (s : Shape) × (s.Idx → EReal)), ⟨⟨2, ![R, 32]⟩, x₂⟩, ⟨⟨2, ![R, 32]⟩, x₃⟩] h (ix2 p j) 0 (by simp) ⟨2, ![R, 32]⟩ x₁ rfl rfl 0 rfl (ix2 p ⟨j.val, hj⟩)
      (fun b hb => match b with | ⟨0, _⟩ => rfl | ⟨1, _⟩ => absurd rfl hb)
      (by show 0 + j.val = j.val; omega)
  · rw [dif_neg hj]
    by_cases hj2 : j.val < 64
    · rw [dif_pos hj2]
      exact concatenate_apply_piece (t := ⟨2, ![R, 96]⟩) 1 [(⟨⟨2, ![R, 32]⟩, x₁⟩ : (s : Shape) × (s.Idx → EReal)), ⟨⟨2, ![R, 32]⟩, x₂⟩, ⟨⟨2, ![R, 32]⟩, x₃⟩] h (ix2 p j) 1 (by simp) ⟨2, ![R, 32]⟩ x₂ rfl rfl 32 rfl (ix2 p ⟨j.val - 32, by omega⟩)
        (fun b hb => match b with | ⟨0, _⟩ => rfl | ⟨1, _⟩ => absurd rfl hb)
        (by show 32 + (j.val - 32) = j.val; omega)
    · rw [dif_neg hj2]
      exact concatenate_apply_piece (t := ⟨2, ![R, 96]⟩) 1 [(⟨⟨2, ![R, 32]⟩, x₁⟩ : (s : Shape) × (s.Idx → EReal)), ⟨⟨2, ![R, 32]⟩, x₂⟩, ⟨⟨2, ![R, 32]⟩, x₃⟩] h (ix2 p j) 2 (by simp) ⟨2, ![R, 32]⟩ x₃ rfl rfl 64 rfl (ix2 p ⟨j.val - 64, by omega⟩)
        (fun b hb => match b with | ⟨0, _⟩ => rfl | ⟨1, _⟩ => absurd rfl hb)
        (by show 64 + (j.val - 64) = j.val; omega)

/-! ## The sigmoid as the host spells it -/

/-- 1 / (1 + exp (-y)) with both ones the pattern of 1.0 is the sigmoid of y. -/
theorem host_sigmoid (y : EReal) :
    Ideal.div (Ideal.ofBits .f32 0x3F800000#32) (Ideal.ofBits .f32 0x3F800000#32 + Ideal.exp (-y)) = Ideal.logistic y := by
  rw [Ideal.ofBits_one_f32]; rfl

end Cert.RowScore

end
-- ==== Proof.TileScore.lean ====
/-
  One tile of the kernel, read at a row.

  A tile holds 2000 consecutive queries. Its one store writes, at row p, the sigmoid of the prediction maps of
  that row's 96 interaction entries; those are built from the group row (the affine map of row p of the
  member block) and the item row (row p of the id block followed by three affine maps of row p of the genre
  block). Every matrix product contracts over the columns only, so row p of the result reads row p of the
  three streamed blocks and the whole weight blocks: exactly `RowScore.rowOut`.
-/
import proofs.«166346_j77687368450112_1_alg».proof.Proof.Gen.KernelIdeal.Frame
import proofs.«166346_j77687368450112_1_alg».proof.Proof.RowScore

noncomputable section

namespace Cert.KernelIdeal.TileScore

open Cert.KernelIdeal Cert.KernelIdeal.Gen Idealize.ShloMosaic Idealize.ShloMosaic.ValueIdx Cert.RowScore

/-- The item rows of a tile: at (p, j), the item row of row p of the id block and the genre block. -/
theorem itemTile_apply (v0 : FVec Ideal S2000x18 .f32) (v3 : FVec Ideal S30x18 .f32) (v7 : FVec Ideal S30 .f32)
    (v11 : FVec Ideal S30x30 .f32) (v16 : FVec Ideal S30 .f32) (v20 : FVec Ideal S5x30 .f32) (v25 : FVec Ideal S5 .f32)
    (v29 : FVec Ideal S2000x27 .f32) (p : Fin 2000) (j : Fin 32) :
    k0_pay2 (F := Ideal) v0 v3 v7 v11 v16 v20 v25 v29 (ix2 p j)
      = itemOf v3 v7 v11 v16 v20 v25 (fun k => v29 (ix2 p k)) (fun k => v0 (ix2 p k)) j := by
  unfold k0_pay2
  refine (cat_item (R := 2000) _ _ _ p j).trans ?_
  refine congrArg₂ (fun b g => itemRow b g j) (funext fun k => congrFun (shapeCast_self v29 _) (ix2 p k))
    (funext fun q => ?_)
  refine (tile_layer (R := 2000) (K := 30) (N := 5) _ v20 v25 _ _ _ _ _ p q).trans ?_
  refine congrArg (fun x => lin v20 v25 x q) (funext fun k2 => ?_)
  refine (tile_layer (R := 2000) (K := 30) (N := 30) _ v11 v16 _ _ _ _ _ p k2).trans ?_
  refine congrArg (fun x => lin v11 v16 x k2) (funext fun k1 => ?_)
  refine (tile_layer (R := 2000) (K := 18) (N := 30) _ v3 v7 _ _ _ _ _ p k1).trans ?_
  exact congrArg (fun x => lin v3 v7 x k1) (funext fun k0 => congrFun (shapeCast_self v0 _) (ix2 p k0))

/-- The group rows of a tile: at (p, k), the affine map of row p of the member block. -/
theorem grpTile_apply (x0 : FVec Ideal S2000x96 .f32) (x3 : FVec Ideal S32x96 .f32) (v39 : FVec Ideal S32 .f32)
    (p : Fin 2000) (k : Fin 32) :
    addf (matmul (F := Ideal) dot_S2000x96_S96x32_S2000x32_1_0_0_1_n_n none (k0_pay3 (F := Ideal) x0) (k0_pay4 (F := Ideal) x3)
            (constant (F := Ideal) S2000x32 .f32 0x00000000#32))
        (broadcastTo S2000x32 (shapeCast S1x32 v39 shapeCasts_S32_S1x32) broadcasts_S1x32_S2000x32) (ix2 p k)
      = lin x3 v39 (fun k0 => x0 (ix2 p k0)) k := by
  unfold k0_pay3 k0_pay4
  refine (tile_layer (R := 2000) (K := 96) (N := 32) _ x3 v39 _ _ _ _ _ p k).trans ?_
  exact congrArg (fun x => lin x3 v39 x k) (funext fun k0 => congrFun (shapeCast_self x0 _) (ix2 p k0))

/-- The tile's store at row p: the score of that row. -/
theorem scoreTile_apply (v31 : FVec Ideal S2000x32 .f32) (x0 : FVec Ideal S2000x96 .f32) (x3 : FVec Ideal S32x96 .f32)
    (v39 : FVec Ideal S32 .f32) (v45 : FVec Ideal S8x96 .f32) (v50 : FVec Ideal S8 .f32) (v56 : FVec Ideal S1x8 .f32)
    (v61 : FVec Ideal S1 .f32) (p : Fin 2000) :
    k0_pay1 (F := Ideal) v31 (k0_pay3 (F := Ideal) x0) (k0_pay4 (F := Ideal) x3) (constant (F := Ideal) S2000x32 .f32 0x00000000#32)
        v39 v45 v50 v56 v61 (ix2 p (0 : Fin 1))
      = scoreOf v45 v50 v56 v61 (newOf (lin x3 v39 (fun k0 => x0 (ix2 p k0))) (fun j => v31 (ix2 p j))) := by
  unfold k0_pay1
  refine congrArg Ideal.logistic ?_
  refine (tile_layer (R := 2000) (K := 8) (N := 1) _ v56 v61 _ _ _ _ _ p 0).trans ?_
  refine congrArg (fun x => lin v56 v61 x (0 : Fin 1)) (funext fun q => ?_)
  refine congrArg₂ max ?_ Ideal.ofBits_zero_f32
  refine (tile_layer (R := 2000) (K := 96) (N := 8) _ v45 v50 _ _ _ _ _ p q).trans ?_
  refine congrArg (fun x => lin v45 v50 x q) (funext fun j => ?_)
  refine (cat_new (R := 2000) _ _ _ _ p j).trans ?_
  unfold newOf
  exact congrArg₂ (fun e g => newRow e g (fun k => v31 (ix2 p k)) j)
    (funext fun k => congrArg (· * v31 (ix2 p k)) (grpTile_apply x0 x3 v39 p k))
    (funext fun k => grpTile_apply x0 x3 v39 p k)

end Cert.KernelIdeal.TileScore

end
-- ==== Proof.KernelArray.lean ====
/-
  The kernel's result array.

  The grid has 500 points; point t stages rows 2000 t … 2000 t + 1999 of the three gathered arrays and the whole
  of every weight and bias array, and writes back rows 2000 t … 2000 t + 1999 of the result. A tile scores each
  of its rows from that row alone (`TileScore`), so what point t writes back is block t of ONE array: the
  scores of all 1000000 queries, row by row. The 500 blocks cover the result, which therefore ends holding it.
-/
import proofs.«166346_j77687368450112_1_alg».proof.Proof.Gen.KernelIdeal.Value
import proofs.«166346_j77687368450112_1_alg».proof.Proof.TileScore

noncomputable section

namespace Cert.KernelIdeal.Scores

open Cert.KernelIdeal Cert.KernelIdeal.Gen Cert.KernelIdeal.Value Cert.KernelIdeal.TileScore
open Idealize.ShloMosaic Idealize.ShloMosaic.TcCoe Idealize.SL.Sem Idealize.ShloMosaic.ValueIdx Cert.RowScore
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

theorem points : cfg0.N = 500 := rfl

/-! ## What a tile stores, over any blocks -/

/-- The staging buffer of the result after the body, at row p: the score of row p of the three streamed blocks
    under the weights the other twelve blocks hold. -/
theorem out_tile (x0 : Vec Ideal S2000x96 .f32) (x1 : Vec Ideal S2000x27 .f32) (x2 : Vec Ideal S2000x18 .f32)
    (x3 : Vec Ideal S32x96 .f32) (x4 : Vec Ideal S32 .f32) (x5 : Vec Ideal S30x18 .f32) (x6 : Vec Ideal S30 .f32)
    (x7 : Vec Ideal S30x30 .f32) (x8 : Vec Ideal S30 .f32) (x9 : Vec Ideal S5x30 .f32) (x10 : Vec Ideal S5 .f32)
    (x11 : Vec Ideal S8x96 .f32) (x12 : Vec Ideal S8 .f32) (x13 : Vec Ideal S1x8 .f32) (x14 : Vec Ideal S1 .f32)
    (y : S2000x1.Idx) :
    out0_15 (F := Ideal) x0 x1 x2 x3 x4 x5 x6 x7 x8 x9 x10 x11 x12 x13 x14 y
      = rowOut ⟨x3, x4, x5, x6, x7, x8, x9, x10, x11, x12, x13, x14⟩
          (fun k => x0 (ix2 ⟨(y 0).val, idx2_lt0 y⟩ k)) (fun k => x1 (ix2 ⟨(y 0).val, idx2_lt0 y⟩ k))
          (fun k => x2 (ix2 ⟨(y 0).val, idx2_lt0 y⟩ k)) := by
  obtain ⟨p, u, rfl⟩ : ∃ (p : Fin 2000) (u : Fin 1), y = ix2 p u := ⟨y 0, y 1, eq_ix2 y⟩
  obtain rfl : u = 0 := Subsingleton.elim _ _
  unfold out0_15
  rw [View.canon_unit_zero zero2]
  simp only [View.ld_unit_zero (S := S2000x18) zero2, View.ld_unit_zero (S := S30x18) zero2,
    View.ld_unit_zero (S := S30) zero1, View.ld_unit_zero (S := S30x30) zero2, View.ld_unit_zero (S := S5x30) zero2,
    View.ld_unit_zero (S := S5) zero1, View.ld_unit_zero (S := S2000x27) zero2, View.ld_unit_zero (S := S2000x96) zero2,
    View.ld_unit_zero (S := S32x96) zero2, View.ld_unit_zero (S := S32) zero1, View.ld_unit_zero (S := S8x96) zero2,
    View.ld_unit_zero (S := S8) zero1, View.ld_unit_zero (S := S1x8) zero2, View.ld_unit_zero (S := S1) zero1]
  refine (scoreTile_apply _ x0 x3 x4 x11 x12 x13 x14 p).trans ?_
  unfold rowOut
  exact congrArg (fun it => scoreOf x11 x12 x13 x14 (newOf (lin x3 x4 (fun k0 => x0 (ix2 p k0))) it))
    (funext fun j => itemTile_apply x2 x5 x6 x7 x8 x9 x10 x1 p j)

/-! ## The blocks a point stages -/

/-- The three streamed windows and the result window move one block of 2000 rows per point. -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- Entry (r, k) of the member block at point t is entry (2000 t + r, k) of the member array. -/
theorem rows0 (c : Dev nD) (t : Fin cfg0.N) (y : S2000x96.Idx) (i : S1000000x96.Idx)
    (h0 : (i 0).val = t.val * 2000 + (y 0).val) (h1 : (i 1).val = (y 1).val) :
    (iblk m c 0 t : Vec Ideal S2000x96 .f32) y = V m c main_v14 i := by
  show V m c main_v14 (((cfg0.win 0).blk t).view.emb y) = V m c main_v14 i
  have h : ((cfg0.win 0).blk t).view.emb y = i := by
    funext a; apply Fin.ext
    match a with
    | ⟨0, _⟩ => show win0_0.index t (0 : Fin 2) * 2000 + 1 * (y 0).val = (i 0).val; have := (idx_rows0 t).1; omega
    | ⟨1, _⟩ => show win0_0.index t (1 : Fin 2) * 96 + 1 * (y 1).val = (i 1).val; have := (idx_rows0 t).2; omega
  rw [h]

/-- The same for the id block … -/
theorem rows1 (c : Dev nD) (t : Fin cfg0.N) (y : S2000x27.Idx) (i : S1000000x27.Idx)
    (h0 : (i 0).val = t.val * 2000 + (y 0).val) (h1 : (i 1).val = (y 1).val) :
    (iblk m c 1 t : Vec Ideal S2000x27 .f32) y = V m c main_v21 i := by
  show V m c main_v21 (((cfg0.win 1).blk t).view.emb y) = V m c main_v21 i
  have h : ((cfg0.win 1).blk t).view.emb y = i := by
    funext a; apply Fin.ext
    match a with
    | ⟨0, _⟩ => show win0_1.index t (0 : Fin 2) * 2000 + 1 * (y 0).val = (i 0).val; have := (idx_rows1 t).1; omega
    | ⟨1, _⟩ => show win0_1.index t (1 : Fin 2) * 27 + 1 * (y 1).val = (i 1).val; have := (idx_rows1 t).2; omega
  rw [h]

/-- … and the genre block. -/
theorem rows2 (c : Dev nD) (t : Fin cfg0.N) (y : S2000x18.Idx) (i : S1000000x18.Idx)
    (h0 : (i 0).val = t.val * 2000 + (y 0).val) (h1 : (i 1).val = (y 1).val) :
    (iblk m c 2 t : Vec Ideal S2000x18 .f32) y = V m c main_v28 i := by
  show V m c main_v28 (((cfg0.win 2).blk t).view.emb y) = V m c main_v28 i
  have h : ((cfg0.win 2).blk t).view.emb y = i := by
    funext a; apply Fin.ext
    match a with
    | ⟨0, _⟩ => show win0_2.index t (0 : Fin 2) * 2000 + 1 * (y 0).val = (i 0).val; have := (idx_rows2 t).1; omega
    | ⟨1, _⟩ => show win0_2.index t (1 : Fin 2) * 18 + 1 * (y 1).val = (i 1).val; have := (idx_rows2 t).2; omega
  rw [h]

/-! Every weight and bias window sits at block index 0 on every axis at every point, and its block is its whole
    array: it reads the array unchanged. One lemma per window; the six matrices first, then the six vectors. -/

theorem idx_zero3 : ∀ t : Fin cfg0.N, ∀ a : Fin 2, win0_3.index t a = 0 :=
  (by decide +kernel : ∀ t : Fin grid0.N, ∀ a : Fin 2, win0_3.index t a = 0)
theorem idx_zero5 : ∀ t : Fin cfg0.N, ∀ a : Fin 2, win0_5.index t a = 0 :=
  (by decide +kernel : ∀ t : Fin grid0.N, ∀ a : Fin 2, win0_5.index t a = 0)
theorem idx_zero7 : ∀ t : Fin cfg0.N, ∀ a : Fin 2, win0_7.index t a = 0 :=
  (by decide +kernel : ∀ t : Fin grid0.N, ∀ a : Fin 2, win0_7.index t a = 0)
theorem idx_zero9 : ∀ t : Fin cfg0.N, ∀ a : Fin 2, win0_9.index t a = 0 :=
  (by decide +kernel : ∀ t : Fin grid0.N, ∀ a : Fin 2, win0_9.index t a = 0)
theorem idx_zero11 : ∀ t : Fin cfg0.N, ∀ a : Fin 2, win0_11.index t a = 0 :=
  (by decide +kernel : ∀ t : Fin grid0.N, ∀ a : Fin 2, win0_11.index t a = 0)
theorem idx_zero13 : ∀ t : Fin cfg0.N, ∀ a : Fin 2, win0_13.index t a = 0 :=
  (by decide +kernel : ∀ t : Fin grid0.N, ∀ a : Fin 2, win0_13.index t a = 0)
theorem idx_zero4 : ∀ t : Fin cfg0.N, ∀ a : Fin 1, win0_4.index t a = 0 :=
  (by decide +kernel : ∀ t : Fin grid0.N, ∀ a : Fin 1, win0_4.index t a = 0)
theorem idx_zero6 : ∀ t : Fin cfg0.N, ∀ a : Fin 1, win0_6.index t a = 0 :=
  (by decide +kernel : ∀ t : Fin grid0.N, ∀ a : Fin 1, win0_6.index t a = 0)
theorem idx_zero8 : ∀ t : Fin cfg0.N, ∀ a : Fin 1, win0_8.index t a = 0 :=
  (by decide +kernel : ∀ t : Fin grid0.N, ∀ a : Fin 1, win0_8.index t a = 0)
theorem idx_zero10 : ∀ t : Fin cfg0.N, ∀ a : Fin 1, win0_10.index t a = 0 :=
  (by decide +kernel : ∀ t : Fin grid0.N, ∀ a : Fin 1, win0_10.index t a = 0)
theorem idx_zero12 : ∀ t : Fin cfg0.N, ∀ a : Fin 1, win0_12.index t a = 0 :=
  (by decide +kernel : ∀ t : Fin grid0.N, ∀ a : Fin 1, win0_12.index t a = 0)
theorem idx_zero14 : ∀ t : Fin cfg0.N, ∀ a : Fin 1, win0_14.index t a = 0 :=
  (by decide +kernel : ∀ t : Fin grid0.N, ∀ a : Fin 1, win0_14.index t a = 0)

theorem whole3 (c : Dev nD) (t : Fin cfg0.N) : (iblk m c 3 t : Vec Ideal S32x96 .f32) = V m c main_arg6 := by
  funext y
  show V m c main_arg6 (((cfg0.win 3).blk t).view.emb y) = V m c main_arg6 y
  have h : ((cfg0.win 3).blk t).view.emb y = y := by
    funext a; apply Fin.ext
    match a with
    | ⟨0, _⟩ => show win0_3.index t (0 : Fin 2) * 32 + 1 * (y 0).val = (y 0).val; have := idx_zero3 t 0; omega
    | ⟨1, _⟩ => show win0_3.index t (1 : Fin 2) * 96 + 1 * (y 1).val = (y 1).val; have := idx_zero3 t 1; omega
  rw [h]

theorem whole5 (c : Dev nD) (t : Fin cfg0.N) : (iblk m c 5 t : Vec Ideal S30x18 .f32) = V m c main_arg8 := by
  funext y
  show V m c main_arg8 (((cfg0.win 5).blk t).view.emb y) = V m c main_arg8 y
  have h : ((cfg0.win 5).blk t).view.emb y = y := by
    funext a; apply Fin.ext
    match a with
    | ⟨0, _⟩ => show win0_5.index t (0 : Fin 2) * 30 + 1 * (y 0).val = (y 0).val; have := idx_zero5 t 0; omega
    | ⟨1, _⟩ => show win0_5.index t (1 : Fin 2) * 18 + 1 * (y 1).val = (y 1).val; have := idx_zero5 t 1; omega
  rw [h]

theorem whole7 (c : Dev nD) (t : Fin cfg0.N) : (iblk m c 7 t : Vec Ideal S30x30 .f32) = V m c main_arg10 := by
  funext y
  show V m c main_arg10 (((cfg0.win 7).blk t).view.emb y) = V m c main_arg10 y
  have h : ((cfg0.win 7).blk t).view.emb y = y := by
    funext a; apply Fin.ext
    match a with
    | ⟨0, _⟩ => show win0_7.index t (0 : Fin 2) * 30 + 1 * (y 0).val = (y 0).val; have := idx_zero7 t 0; omega
    | ⟨1, _⟩ => show win0_7.index t (1 : Fin 2) * 30 + 1 * (y 1).val = (y 1).val; have := idx_zero7 t 1; omega
  rw [h]

theorem whole9 (c : Dev nD) (t : Fin cfg0.N) : (iblk m c 9 t : Vec Ideal S5x30 .f32) = V m c main_arg12 := by
  funext y
  show V m c main_arg12 (((cfg0.win 9).blk t).view.emb y) = V m c main_arg12 y
  have h : ((cfg0.win 9).blk t).view.emb y = y := by
    funext a; apply Fin.ext
    match a with
    | ⟨0, _⟩ => show win0_9.index t (0 : Fin 2) * 5 + 1 * (y 0).val = (y 0).val; have := idx_zero9 t 0; omega
    | ⟨1, _⟩ => show win0_9.index t (1 : Fin 2) * 30 + 1 * (y 1).val = (y 1).val; have := idx_zero9 t 1; omega
  rw [h]

theorem whole11 (c : Dev nD) (t : Fin cfg0.N) : (iblk m c 11 t : Vec Ideal S8x96 .f32) = V m c main_arg14 := by
  funext y
  show V m c main_arg14 (((cfg0.win 11).blk t).view.emb y) = V m c main_arg14 y
  have h : ((cfg0.win 11).blk t).view.emb y = y := by
    funext a; apply Fin.ext
    match a with
    | ⟨0, _⟩ => show win0_11.index t (0 : Fin 2) * 8 + 1 * (y 0).val = (y 0).val; have := idx_zero11 t 0; omega
    | ⟨1, _⟩ => show win0_11.index t (1 : Fin 2) * 96 + 1 * (y 1).val = (y 1).val; have := idx_zero11 t 1; omega
  rw [h]

theorem whole13 (c : Dev nD) (t : Fin cfg0.N) : (iblk m c 13 t : Vec Ideal S1x8 .f32) = V m c main_arg16 := by
  funext y
  show V m c main_arg16 (((cfg0.win 13).blk t).view.emb y) = V m c main_arg16 y
  have h : ((cfg0.win 13).blk t).view.emb y = y := by
    funext a; apply Fin.ext
    match a with
    | ⟨0, _⟩ => show win0_13.index t (0 : Fin 2) * 1 + 1 * (y 0).val = (y 0).val; have := idx_zero13 t 0; omega
    | ⟨1, _⟩ => show win0_13.index t (1 : Fin 2) * 8 + 1 * (y 1).val = (y 1).val; have := idx_zero13 t 1; omega
  rw [h]

theorem whole4 (c : Dev nD) (t : Fin cfg0.N) : (iblk m c 4 t : Vec Ideal S32 .f32) = V m c main_arg7 := by
  funext y
  show V m c main_arg7 (((cfg0.win 4).blk t).view.emb y) = V m c main_arg7 y
  have h : ((cfg0.win 4).blk t).view.emb y = y := by
    funext a; apply Fin.ext
    match a with
    | ⟨0, _⟩ => show win0_4.index t (0 : Fin 1) * 32 + 1 * (y 0).val = (y 0).val; have := idx_zero4 t 0; omega
  rw [h]

theorem whole6 (c : Dev nD) (t : Fin cfg0.N) : (iblk m c 6 t : Vec Ideal S30 .f32) = V m c main_arg9 := by
  funext y
  show V m c main_arg9 (((cfg0.win 6).blk t).view.emb y) = V m c main_arg9 y
  have h : ((cfg0.win 6).blk t).view.emb y = y := by
    funext a; apply Fin.ext
    match a with
    | ⟨0, _⟩ => show win0_6.index t (0 : Fin 1) * 30 + 1 * (y 0).val = (y 0).val; have := idx_zero6 t 0; omega
  rw [h]

theorem whole8 (c : Dev nD) (t : Fin cfg0.N) : (iblk m c 8 t : Vec Ideal S30 .f32) = V m c main_arg11 := by
  funext y
  show V m c main_arg11 (((cfg0.win 8).blk t).view.emb y) = V m c main_arg11 y
  have h : ((cfg0.win 8).blk t).view.emb y = y := by
    funext a; apply Fin.ext
    match a with
    | ⟨0, _⟩ => show win0_8.index t (0 : Fin 1) * 30 + 1 * (y 0).val = (y 0).val; have := idx_zero8 t 0; omega
  rw [h]

theorem whole10 (c : Dev nD) (t : Fin cfg0.N) : (iblk m c 10 t : Vec Ideal S5 .f32) = V m c main_arg13 := by
  funext y
  show V m c main_arg13 (((cfg0.win 10).blk t).view.emb y) = V m c main_arg13 y
  have h : ((cfg0.win 10).blk t).view.emb y = y := by
    funext a; apply Fin.ext
    match a with
    | ⟨0, _⟩ => show win0_10.index t (0 : Fin 1) * 5 + 1 * (y 0).val = (y 0).val; have := idx_zero10 t 0; omega
  rw [h]

theorem whole12 (c : Dev nD) (t : Fin cfg0.N) : (iblk m c 12 t : Vec Ideal S8 .f32) = V m c main_arg15 := by
  funext y
  show V m c main_arg15 (((cfg0.win 12).blk t).view.emb y) = V m c main_arg15 y
  have h : ((cfg0.win 12).blk t).view.emb y = y := by
    funext a; apply Fin.ext
    match a with
    | ⟨0, _⟩ => show win0_12.index t (0 : Fin 1) * 8 + 1 * (y 0).val = (y 0).val; have := idx_zero12 t 0; omega
  rw [h]

theorem whole14 (c : Dev nD) (t : Fin cfg0.N) : (iblk m c 14 t : Vec Ideal S1 .f32) = V m c main_arg17 := by
  funext y
  show V m c main_arg17 (((cfg0.win 14).blk t).view.emb y) = V m c main_arg17 y
  have h : ((cfg0.win 14).blk t).view.emb y = y := by
    funext a; apply Fin.ext
    match a with
    | ⟨0, _⟩ => show win0_14.index t (0 : Fin 1) * 1 + 1 * (y 0).val = (y 0).val; have := idx_zero14 t 0; omega
  rw [h]

/-! ## The array -/

/-- The weights and biases as the region finds them. -/
def paramsV (c : Dev nD) : Params where
  Wm := V m c main_arg6
  bm := V m c main_arg7
  W1 := V m c main_arg8
  b1 := V m c main_arg9
  W2 := V m c main_arg10
  b2 := V m c main_arg11
  W3 := V m c main_arg12
  b3 := V m c main_arg13
  Wp1 := V m c main_arg14
  bp1 := V m c main_arg15
  Wp2 := V m c main_arg16
  bp2 := V m c main_arg17

/-- The scores of all queries, from the three gathered arrays as the region finds them. -/
def scores (c : Dev nD) : S1000000x1.Idx → EReal :=
  scoreArr (paramsV m c) (V m c main_v14) (V m c main_v21) (V m c main_v28)

/-- Row r of the result block at point t is row 2000 t + r of the result. -/
theorem out_row (t : Fin cfg0.N) (j : S2000x1.Idx) :
    ((((cfg0.win 15).blk t).view.emb j) 0).val = t.val * 2000 + (j 0).val := by
  show win0_15.index t (0 : Fin 2) * 2000 + 1 * (j 0).val = t.val * 2000 + (j 0).val
  have := (idx_rows15 t).1
  omega

/-- What point t writes back is block t of the scores. -/
theorem flushed_eq (c : Dev nD) (t : Fin cfg0.N) :
    (dats m 0 c).flushed 15 t = ((cfg0.win 15).blk t).view.read (Elt Ideal) (scores m c) := by
  rw [flushed15]
  funext j
  show out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) j = scores m c (((cfg0.win 15).blk t).view.emb j)
  refine (out_tile (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) j).trans ?_
  rw [whole3 m c t, whole4 m c t, whole5 m c t, whole6 m c t, whole7 m c t, whole8 m c t, whole9 m c t, whole10 m c t,
    whole11 m c t, whole12 m c t, whole13 m c t, whole14 m c t]
  unfold scores scoreArr paramsV
  have hr := out_row t j
  exact congr (congr (congrArg _ (funext fun k => rows0 m c t _ _ hr rfl)) (funext fun k => rows1 m c t _ _ hr rfl))
    (funext fun k => rows2 m c t _ _ hr rfl)

/-- An index of the result is in point t's block iff each coordinate is in the block's range on its axis. -/
theorem mem_blk (t : Fin cfg0.N) (i : S1000000x1.Idx) :
    i ∈ ((cfg0.win 15).blk t).view.set ↔ ∀ a : Fin 2, win0_15.index t a * S2000x1.size a ≤ (i a).val
      ∧ (i a).val < win0_15.index t a * S2000x1.size a + S2000x1.size a := by
  show i ∈ ((View.whole main_v29).slice (win0_15.rect t)).set ↔ _
  rw [View.set_slice_whole, Rect.mem_set_unit]
  exact Iff.rfl

/-- Row r of the result is in the block of point r / 2000. -/
theorem cover (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  have hlt : (i 0).val / 2000 < cfg0.N := by rw [points]; omega
  refine ⟨⟨(i 0).val / 2000, hlt⟩, flush0_15 _, ?_⟩
  rw [mem_blk]
  have e := idx_rows15 ⟨(i 0).val / 2000, hlt⟩
  intro a
  match a with
  | ⟨0, _⟩ =>
    show win0_15.index ⟨(i 0).val / 2000, hlt⟩ (0 : Fin 2) * 2000 ≤ (i 0).val
      ∧ (i 0).val < win0_15.index ⟨(i 0).val / 2000, hlt⟩ (0 : Fin 2) * 2000 + 2000
    have e0 : win0_15.index ⟨(i 0).val / 2000, hlt⟩ (0 : Fin 2) = (i 0).val / 2000 := e.1
    omega
  | ⟨1, _⟩ =>
    show win0_15.index ⟨(i 0).val / 2000, hlt⟩ (1 : Fin 2) * 1 ≤ (i 1).val
      ∧ (i 1).val < win0_15.index ⟨(i 0).val / 2000, hlt⟩ (1 : Fin 2) * 1 + 1
    have e1 := e.2
    omega

/-- The result array after the run is the scores of all queries. -/
theorem final (c : Dev nD) : (dats m 0 c).arrAt 15 cfg0.N = scores m c :=
  (dats m 0 c).arrAt_eq_of_cover 15 (scores m c) (fun t _ => flushed_eq m c t) cover

/-- The run, with the result named. -/
theorem run : θ_run defs (onTc (τ := τ) (main (F := Ideal))) ⟨m, fun _ => 0, ρ⟩ fun r => ∀ c : Dev nD,
      r.2.mem ((c : Thread nD τ).loc main_v29) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (run_blocks m ρ)

end Cert.KernelIdeal.Scores

end
-- ==== Proof.RefScore.lean ====
/-
  The reference, read at a query.

  The host program gathers, for every query, its three rows (the 96 member-embedding entries of its group,
  the 27 id entries and the 18 genre entries of its item: the index wrapped when negative, the lookup clamped
  into the table), then runs the same affine maps on whole [1000000, ·] arrays. Every product contracts over the
  columns, every bias is spread over the rows, the two concatenations are along the columns: entry (p, 0) of
  the result reads row p of the three gathered arrays only, and is `RowScore.rowOut` of them.
-/
import proofs.«166346_j77687368450112_1_alg».proof.Proof.Gen.ReferenceIdeal.Run
import proofs.«166346_j77687368450112_1_alg».proof.Proof.RowScore

noncomputable section

namespace Cert.ReferenceIdeal.RefScore

open Cert.ReferenceIdeal Cert.ReferenceIdeal.Gen Cert.ReferenceIdeal.Value Idealize.ShloMosaic Idealize.ShloMosaic.ValueIdx Cert.RowScore

/-! ## The gathered arrays -/

/-- A query's table index, 100000 added when it is negative. -/
def wrapQ (x : IVec S1000000 32) : IVec S1000000 32 :=
  select (cmpi .slt x (broadcastInDim S1000000 ![] bcast_S_S1000000 (constantI S_ 32 0#32)))
    (addi x (broadcastInDim S1000000 ![] bcast_S_S1000000 (constantI S_ 32 100000#32))) x

/-- The same for the three member ids of every query. -/
def wrapM (x : IVec S1000000x3 32) : IVec S1000000x3 32 :=
  select (cmpi .slt x (broadcastInDim S1000000x3 ![] bcast_S_S1000000x3 (constantI S_ 32 0#32)))
    (addi x (broadcastInDim S1000000x3 ![] bcast_S_S1000000x3 (constantI S_ 32 100000#32))) x

/-- Every query's three member ids: its group's row of the membership table. -/
def memberIds (grp : IVec S1000000 32) (members : IVec S100000x3 32) : IVec S1000000x3 32 :=
  Host.gather gather_S100000x3_S1000000x1_S1000000x3_1_0_n_n_0_1_13 members
    (broadcastInDim S1000000x1 ![0] bcast_S1000000_S1000000x1_0 (wrapQ grp))

/-- Every query's 96 member-embedding entries: the three members' rows of the user table, laid end to end. -/
def memRows (grp : IVec S1000000 32) (members : IVec S100000x3 32) (user : FVec Ideal S100000x32 .f32) :
    FVec Ideal S1000000x96 .f32 :=
  shapeCast S1000000x96
    (Host.gather gather_S100000x32_S1000000x3x1_S1000000x3x32_2_0_n_n_0_2_132 user
      (broadcastInDim S1000000x3x1 ![0, 1] bcast_S1000000x3_S1000000x3x1_0_1 (wrapM (memberIds grp members))))
    shapeCasts_S1000000x3x32_S1000000x96

/-- Every query's 27 id entries: its item's row of the id table. -/
def idRows (item : IVec S1000000 32) (tbl : FVec Ideal S100000x27 .f32) : FVec Ideal S1000000x27 .f32 :=
  Host.gather gather_S100000x27_S1000000x1_S1000000x27_1_0_n_n_0_1_127 tbl
    (broadcastInDim S1000000x1 ![0] bcast_S1000000_S1000000x1_0 (wrapQ item))

/-- Every query's 18 genre entries: its item's row of the genre table. -/
def genreRows (item : IVec S1000000 32) (tbl : FVec Ideal S100000x18 .f32) : FVec Ideal S1000000x18 .f32 :=
  Host.gather gather_S100000x18_S1000000x1_S1000000x18_1_0_n_n_0_1_118 tbl
    (broadcastInDim S1000000x1 ![0] bcast_S1000000_S1000000x1_0 (wrapQ item))

/-! ## The maps on whole arrays -/

/-- The item rows of all queries. -/
def hostItem (B : FVec Ideal S1000000x27 .f32) (C : FVec Ideal S1000000x18 .f32) (W1 : FVec Ideal S30x18 .f32)
    (b1 : FVec Ideal S30 .f32) (W2 : FVec Ideal S30x30 .f32) (b2 : FVec Ideal S30 .f32) (W3 : FVec Ideal S5x30 .f32)
    (b3 : FVec Ideal S5 .f32) : FVec Ideal S1000000x32 .f32 :=
  concatenate S1000000x32 1 [⟨S1000000x27, B⟩, ⟨S1000000x5,
    (addf (Host.dotGeneral (F := Ideal) dot_S1000000x30_S30x5_S1000000x5_1_0_0_1_n_n none
      (addf (Host.dotGeneral (F := Ideal) dot_S1000000x30_S30x30_S1000000x30_1_0_0_1_n_n none
        (addf (Host.dotGeneral (F := Ideal) dot_S1000000x18_S18x30_S1000000x30_1_0_0_1_n_n none C
            (transpose S18x30 [1, 0] W1 transposes_S30x18_S18x30_1_0))
          (broadcastInDim S1000000x30 ![0, 1] bcast_S1x30_S1000000x30_0_1 (broadcastInDim S1x30 ![1] bcast_S30_S1x30_1 b1)))
        (transpose S30x30 [1, 0] W2 transposes_S30x30_S30x30_1_0))
        (broadcastInDim S1000000x30 ![0, 1] bcast_S1x30_S1000000x30_0_1 (broadcastInDim S1x30 ![1] bcast_S30_S1x30_1 b2)))
      (transpose S30x5 [1, 0] W3 transposes_S5x30_S30x5_1_0))
      (broadcastInDim S1000000x5 ![0, 1] bcast_S1x5_S1000000x5_0_1 (broadcastInDim S1x5 ![1] bcast_S5_S1x5_1 b3)))⟩]
    concatenates_S1000000x27_S1000000x5_S1000000x32_d1

/-- The group rows of all queries. -/
def hostGrp (A : FVec Ideal S1000000x96 .f32) (Wm : FVec Ideal S32x96 .f32) (bm : FVec Ideal S32 .f32) :
    FVec Ideal S1000000x32 .f32 :=
  addf (Host.dotGeneral (F := Ideal) dot_S1000000x96_S96x32_S1000000x32_1_0_0_1_n_n none A
      (transpose S96x32 [1, 0] Wm transposes_S32x96_S96x32_1_0))
    (broadcastInDim S1000000x32 ![0, 1] bcast_S1x32_S1000000x32_0_1 (broadcastInDim S1x32 ![1] bcast_S32_S1x32_1 bm))

/-- The scores of all queries from their group rows and item rows. -/
def hostScore (grp item : FVec Ideal S1000000x32 .f32) (Wp1 : FVec Ideal S8x96 .f32) (bp1 : FVec Ideal S8 .f32)
    (Wp2 : FVec Ideal S1x8 .f32) (bp2 : FVec Ideal S1 .f32) : FVec Ideal S1000000x1 .f32 :=
  Host.divf (F := Ideal) (broadcastInDim S1000000x1 ![] bcast_S_S1000000x1 (constant (F := Ideal) S_ .f32 0x3F800000#32))
    (addf (broadcastInDim S1000000x1 ![] bcast_S_S1000000x1 (constant (F := Ideal) S_ .f32 0x3F800000#32))
      (Host.exp (F := Ideal) (Host.negf (F := Ideal)
        (addf (Host.dotGeneral (F := Ideal) dot_S1000000x8_S8x1_S1000000x1_1_0_0_1_n_n none
            (maximumf
              (addf (Host.dotGeneral (F := Ideal) dot_S1000000x96_S96x8_S1000000x8_1_0_0_1_n_n none
                  (concatenate S1000000x96 1 [⟨S1000000x32, (mulf grp item)⟩, ⟨S1000000x32, grp⟩, ⟨S1000000x32, item⟩]
                    concatenates_S1000000x32_S1000000x32_S1000000x32_S1000000x96_d1)
                  (transpose S96x8 [1, 0] Wp1 transposes_S8x96_S96x8_1_0))
                (broadcastInDim S1000000x8 ![0, 1] bcast_S1x8_S1000000x8_0_1 (broadcastInDim S1x8 ![1] bcast_S8_S1x8_1 bp1)))
              (broadcastInDim S1000000x8 ![] bcast_S_S1000000x8 (constant (F := Ideal) S_ .f32 0x00000000#32)))
            (transpose S8x1 [1, 0] Wp2 transposes_S1x8_S8x1_1_0))
          (broadcastInDim S1000000x1 ![0, 1] bcast_S1x1_S1000000x1_0_1 (broadcastInDim S1x1 ![1] bcast_S1_S1x1_1 bp2))))))

/-! ## Read at a row -/

theorem hostItem_apply (B : FVec Ideal S1000000x27 .f32) (C : FVec Ideal S1000000x18 .f32) (W1 : FVec Ideal S30x18 .f32)
    (b1 : FVec Ideal S30 .f32) (W2 : FVec Ideal S30x30 .f32) (b2 : FVec Ideal S30 .f32) (W3 : FVec Ideal S5x30 .f32)
    (b3 : FVec Ideal S5 .f32) (p : Fin 1000000) (j : Fin 32) :
    hostItem B C W1 b1 W2 b2 W3 b3 (ix2 p j)
      = itemOf W1 b1 W2 b2 W3 b3 (fun k => B (ix2 p k)) (fun k => C (ix2 p k)) j := by
  unfold hostItem
  refine (cat_item (R := 1000000) _ _ _ p j).trans ?_
  refine congrArg (fun g => itemRow (fun k => B (ix2 p k)) g j) (funext fun q => ?_)
  refine (host_layer (R := 1000000) (K := 30) (N := 5) _ W3 b3 _ _ _ p q).trans ?_
  refine congrArg (fun x => lin W3 b3 x q) (funext fun k2 => ?_)
  refine (host_layer (R := 1000000) (K := 30) (N := 30) _ W2 b2 _ _ _ p k2).trans ?_
  refine congrArg (fun x => lin W2 b2 x k2) (funext fun k1 => ?_)
  exact host_layer (R := 1000000) (K := 18) (N := 30) C W1 b1 _ _ _ p k1

theorem hostGrp_apply (A : FVec Ideal S1000000x96 .f32) (Wm : FVec Ideal S32x96 .f32) (bm : FVec Ideal S32 .f32)
    (p : Fin 1000000) (k : Fin 32) :
    hostGrp A Wm bm (ix2 p k) = lin Wm bm (fun k0 => A (ix2 p k0)) k :=
  host_layer (R := 1000000) (K := 96) (N := 32) A Wm bm _ _ _ p k

theorem hostScore_apply (grp item : FVec Ideal S1000000x32 .f32) (Wp1 : FVec Ideal S8x96 .f32) (bp1 : FVec Ideal S8 .f32)
    (Wp2 : FVec Ideal S1x8 .f32) (bp2 : FVec Ideal S1 .f32) (p : Fin 1000000) :
    hostScore grp item Wp1 bp1 Wp2 bp2 (ix2 p (0 : Fin 1))
      = scoreOf Wp1 bp1 Wp2 bp2 (newOf (fun k => grp (ix2 p k)) (fun k => item (ix2 p k))) := by
  unfold hostScore
  refine (host_sigmoid _).trans ?_
  refine congrArg Ideal.logistic ?_
  refine (host_layer (R := 1000000) (K := 8) (N := 1) _ Wp2 bp2 _ _ _ p 0).trans ?_
  refine congrArg (fun x => lin Wp2 bp2 x (0 : Fin 1)) (funext fun q => ?_)
  refine congrArg₂ max ?_ ((broadcastInDim_scalar_apply _ _ _).trans Ideal.ofBits_zero_f32)
  refine (host_layer (R := 1000000) (K := 96) (N := 8) _ Wp1 bp1 _ _ _ p q).trans ?_
  exact congrArg (fun x => lin Wp1 bp1 x q) (funext fun j => cat_new (R := 1000000) _ _ _ _ p j)

/-! ## The run's result -/

/-- The weights and biases as the program's arguments hold them. -/
def params (m : (ℓ : Loc nD τ sig) → Buf (Elt Ideal) ℓ) (c : Dev nD) : Params where
  Wm := m ((c.tc : Thread nD τ).loc main_arg6)
  bm := m ((c.tc : Thread nD τ).loc main_arg7)
  W1 := m ((c.tc : Thread nD τ).loc main_arg8)
  b1 := m ((c.tc : Thread nD τ).loc main_arg9)
  W2 := m ((c.tc : Thread nD τ).loc main_arg10)
  b2 := m ((c.tc : Thread nD τ).loc main_arg11)
  W3 := m ((c.tc : Thread nD τ).loc main_arg12)
  b3 := m ((c.tc : Thread nD τ).loc main_arg13)
  Wp1 := m ((c.tc : Thread nD τ).loc main_arg14)
  bp1 := m ((c.tc : Thread nD τ).loc main_arg15)
  Wp2 := m ((c.tc : Thread nD τ).loc main_arg16)
  bp2 := m ((c.tc : Thread nD τ).loc main_arg17)

/-- The three gathered arrays of a memory's arguments. -/
abbrev memOf (m : (ℓ : Loc nD τ sig) → Buf (Elt Ideal) ℓ) (c : Dev nD) : FVec Ideal S1000000x96 .f32 :=
  memRows (m ((c.tc : Thread nD τ).loc main_arg0)) (m ((c.tc : Thread nD τ).loc main_arg2)) (m ((c.tc : Thread nD τ).loc main_arg3))
abbrev idOf (m : (ℓ : Loc nD τ sig) → Buf (Elt Ideal) ℓ) (c : Dev nD) : FVec Ideal S1000000x27 .f32 :=
  idRows (m ((c.tc : Thread nD τ).loc main_arg1)) (m ((c.tc : Thread nD τ).loc main_arg4))
abbrev genreOf (m : (ℓ : Loc nD τ sig) → Buf (Elt Ideal) ℓ) (c : Dev nD) : FVec Ideal S1000000x18 .f32 :=
  genreRows (m ((c.tc : Thread nD τ).loc main_arg1)) (m ((c.tc : Thread nD τ).loc main_arg5))

/-- The run's result is the composition of the maps above on the gathered arrays. -/
theorem res_eq (m : (ℓ : Loc nD τ sig) → Buf (Elt Ideal) ℓ) (c : Dev nD) :
    res_main_v68 (F := Ideal) m c
      = hostScore (hostGrp (memOf m c) (params m c).Wm (params m c).bm)
          (hostItem (idOf m c) (genreOf m c) (params m c).W1 (params m c).b1 (params m c).W2 (params m c).b2
            (params m c).W3 (params m c).b3)
          (params m c).Wp1 (params m c).bp1 (params m c).Wp2 (params m c).bp2 := by
  unfold res_main_v68
  rfl

/-- The run's result, query by query. -/
theorem res_score (m : (ℓ : Loc nD τ sig) → Buf (Elt Ideal) ℓ) (c : Dev nD) :
    res_main_v68 (F := Ideal) m c = scoreArr (params m c) (memOf m c) (idOf m c) (genreOf m c) := by
  rw [res_eq]
  refine funext fun (i : S1000000x1.Idx) => ?_
  obtain ⟨p, u, rfl⟩ : ∃ (p : Fin 1000000) (u : Fin 1), i = ix2 p u := ⟨i 0, i 1, eq_ix2 i⟩
  obtain rfl : u = 0 := Subsingleton.elim _ _
  rw [scoreArr_apply]
  refine (hostScore_apply _ _ _ _ _ _ p).trans ?_
  unfold rowOut
  exact congrArg₂ (fun g it => scoreOf (params m c).Wp1 (params m c).bp1 (params m c).Wp2 (params m c).bp2 (newOf g it))
    (funext fun k => hostGrp_apply _ _ _ p k) (funext fun j => hostItem_apply _ _ _ _ _ _ _ _ p j)

end Cert.ReferenceIdeal.RefScore

end
-- ==== Proof.Bridge.lean ====
/-
  Both programs score the same gathered rows.

  Before its one kernel launch the kernel program's host operations gather, with the reference's own
  operations in the reference's own order, the three arrays the launch streams: the member rows, the id rows
  and the genre rows of every query. So the scores the kernel leaves are `RowScore.scoreArr` of exactly the
  arrays the reference scores.
-/
import proofs.«166346_j77687368450112_1_alg».proof.Proof.KernelArray
import proofs.«166346_j77687368450112_1_alg».proof.Proof.RefScore
import Idealize.ShloMosaic.Lib.StableHlo.Run

noncomputable section

namespace Cert.Bridge

open Idealize.ShloMosaic Idealize.ShloMosaic.TcCoe Idealize.SL.Sem Idealize.ShloMosaic.StableHlo Cert.RowScore
open Cert.KernelIdeal Cert.KernelIdeal.Gen

variable (m : (ℓ : Loc nD τ sig) → Buf (Elt Ideal) ℓ)

set_option maxHeartbeats 4000000 in
/-- The member rows the launch streams are the reference's member rows of the same three arguments. -/
theorem staged_mem (c : Dev nD) :
    (V m c main_v14 : S1000000x96.Idx → EReal)
      = Cert.ReferenceIdeal.RefScore.memRows (m ((c : Thread nD τ).loc main_arg0)) (m ((c : Thread nD τ).loc main_arg2))
          (m ((c : Thread nD τ).loc main_arg3)) := by
  dsimp only [V, hostOps0]
  after_results_simp
  rfl

set_option maxHeartbeats 4000000 in
/-- The id rows likewise … -/
theorem staged_id (c : Dev nD) :
    (V m c main_v21 : S1000000x27.Idx → EReal)
      = Cert.ReferenceIdeal.RefScore.idRows (m ((c : Thread nD τ).loc main_arg1)) (m ((c : Thread nD τ).loc main_arg4)) := by
  dsimp only [V, hostOps0]
  after_results_simp
  rfl

set_option maxHeartbeats 4000000 in
/-- … and the genre rows. -/
theorem staged_genre (c : Dev nD) :
    (V m c main_v28 : S1000000x18.Idx → EReal)
      = Cert.ReferenceIdeal.RefScore.genreRows (m ((c : Thread nD τ).loc main_arg1)) (m ((c : Thread nD τ).loc main_arg5)) := by
  dsimp only [V, hostOps0]
  after_results_simp
  rfl

/-- The weights and biases of a memory's arguments. -/
def paramsOf (c : Dev nD) : Params where
  Wm := m ((c : Thread nD τ).loc main_arg6)
  bm := m ((c : Thread nD τ).loc main_arg7)
  W1 := m ((c : Thread nD τ).loc main_arg8)
  b1 := m ((c : Thread nD τ).loc main_arg9)
  W2 := m ((c : Thread nD τ).loc main_arg10)
  b2 := m ((c : Thread nD τ).loc main_arg11)
  W3 := m ((c : Thread nD τ).loc main_arg12)
  b3 := m ((c : Thread nD τ).loc main_arg13)
  Wp1 := m ((c : Thread nD τ).loc main_arg14)
  bp1 := m ((c : Thread nD τ).loc main_arg15)
  Wp2 := m ((c : Thread nD τ).loc main_arg16)
  bp2 := m ((c : Thread nD τ).loc main_arg17)

/-- The kernel's scores as a function of its arguments alone. -/
theorem scores_eq (c : Dev nD) :
    Cert.KernelIdeal.Scores.scores m c
      = scoreArr (paramsOf m c)
          (Cert.ReferenceIdeal.RefScore.memRows (m ((c : Thread nD τ).loc main_arg0)) (m ((c : Thread nD τ).loc main_arg2))
            (m ((c : Thread nD τ).loc main_arg3)))
          (Cert.ReferenceIdeal.RefScore.idRows (m ((c : Thread nD τ).loc main_arg1)) (m ((c : Thread nD τ).loc main_arg4)))
          (Cert.ReferenceIdeal.RefScore.genreRows (m ((c : Thread nD τ).loc main_arg1)) (m ((c : Thread nD τ).loc main_arg5))) := by
  unfold Cert.KernelIdeal.Scores.scores Cert.KernelIdeal.Scores.paramsV paramsOf
  rw [staged_mem m c, staged_id m c, staged_genre m c, V_main_arg6 m c, V_main_arg7 m c, V_main_arg8 m c, V_main_arg9 m c,
    V_main_arg10 m c, V_main_arg11 m c, V_main_arg12 m c, V_main_arg13 m c, V_main_arg14 m c, V_main_arg15 m c,
    V_main_arg16 m c, V_main_arg17 m c]

end Cert.Bridge

end
-- ==== Proof.lean ====
/-
  The certificate of a group-recommendation scorer: one million (group, item) queries, each scored by a small
  chain of affine maps on three gathered rows, closed by a sigmoid.

  The kernel program gathers the rows on the host and streams them through one kernel launch, 2000 queries a
  tile; the reference gathers the same rows and runs the same maps on whole arrays. On the extended reals the
  kernel's narrowing of its operands to sixteen bits changes nothing, its matrix products into a zero
  accumulator and the host's products are the same sums over the contracted coordinate, its rectifier is the
  host's maximum with zero, and its sigmoid is the host's 1 / (1 + exp (-y)) at every y, the infinities
  included. No law that needs finite inputs is used: the two results are one function of the arguments, query by
  query (`RowScore.rowOut`).

  The frames of the two kernel programs are the generated ones; the reference's frame is its generated run with
  the result dropped. The kernel's idealization rewrote no operation, so there is nothing to preserve.
-/
import proofs.«166346_j77687368450112_1_alg».proof.Defs
import proofs.«166346_j77687368450112_1_alg».proof.Proof.Gen.Kernel
import proofs.«166346_j77687368450112_1_alg».proof.Proof.Gen.Kernel.Skeleton
import proofs.«166346_j77687368450112_1_alg».proof.Proof.Gen.Kernel.Launch
import proofs.«166346_j77687368450112_1_alg».proof.Proof.Gen.Kernel.Points
import proofs.«166346_j77687368450112_1_alg».proof.Proof.Gen.Kernel.Frame
import proofs.«166346_j77687368450112_1_alg».proof.Proof.Gen.KernelIdeal
import proofs.«166346_j77687368450112_1_alg».proof.Proof.Gen.KernelIdeal.Skeleton
import proofs.«166346_j77687368450112_1_alg».proof.Proof.Gen.KernelIdeal.Launch
import proofs.«166346_j77687368450112_1_alg».proof.Proof.Gen.KernelIdeal.Points
import proofs.«166346_j77687368450112_1_alg».proof.Proof.Gen.KernelIdeal.Frame
import proofs.«166346_j77687368450112_1_alg».proof.Proof.Gen.ReferenceIdeal
import proofs.«166346_j77687368450112_1_alg».proof.Proof.Gen.Pre_finite_inputs
import proofs.«166346_j77687368450112_1_alg».proof.Proof.Gen.KernelIdeal.Value
import proofs.«166346_j77687368450112_1_alg».proof.Proof.Gen.ReferenceIdeal.Run
import proofs.«166346_j77687368450112_1_alg».proof.Proof.Bridge
import Idealize.ShloMosaic.Adequacy
import Idealize.ShloMosaic.Init

noncomputable section

namespace Cert.Proof

open Idealize.ShloMosaic Idealize.SL.Sem Idealize.ShloMosaic.TcCoe

namespace Claims

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end, the kernel's result at the scores of its arguments' gathered rows, the reference's at
    the scores of its own arguments' gathered rows: the same array once the arguments agree. -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  show Cert.ReferenceIdeal.Value.res_main_v68 (F := Ideal) m' c = Cert.KernelIdeal.Scores.scores m c
  rw [Cert.ReferenceIdeal.RefScore.res_score, Cert.Bridge.scores_eq]
  unfold Cert.ReferenceIdeal.RefScore.params Cert.ReferenceIdeal.RefScore.memOf Cert.ReferenceIdeal.RefScore.idOf
    Cert.ReferenceIdeal.RefScore.genreOf Cert.Bridge.paramsOf
  rw [h0, h1, h2, h3, h4, h5, h6, h7, h8, h9, h10, h11, h12, h13, h14, h15, h16, h17]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, trivial, Claims.algebraic⟩

end Cert.Proof

end
